-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x65536 : Shape := ⟨2, ![256, 65536]⟩
abbrev S_ : Shape := ⟨0, ![]⟩

class Facts : Prop where
  bcast_S_S256x65536 : S_.BroadcastsInDim S256x65536 (![] : Fin 0 → Fin S256x65536.rank)
  reducesTo_S256x65536_S_d0_1 : S256x65536.ReducesTo [0, 1] S_
  h_S_ : 0 < S_.numel

variable [Facts]

def fn {F : FTy → Type} [FloatOps F] (main_arg0 : FVec F S256x65536 .f32) (main_arg1 : FVec F S256x65536 .f32) : IVec S_ 1 :=
  let main_v0 : FVec F S256x65536 .f32 := Host.absf main_arg0
  let main_cst : FVec F S_ .f32 := constant S_ .f32 0x7F800000#32
  let main_v1 : FVec F S256x65536 .f32 := broadcastInDim S256x65536 ![] bcast_S_S256x65536 main_cst
  let main_v2 : IVec S256x65536 1 := cmpf .olt main_v0 main_v1
  let main_c : IVec S_ 1 := constantI S_ 1 1#1
  let main_v3 : IVec S_ 1 := (fun x v => Host.reduce IntOp.andi x v reducesTo_S256x65536_S_d0_1 h_S_) main_v2 main_c
  let main_v4 : FVec F S256x65536 .f32 := Host.absf main_arg1
  let main_cst_0 : FVec F S_ .f32 := constant S_ .f32 0x7F800000#32
  let main_v5 : FVec F S256x65536 .f32 := broadcastInDim S256x65536 ![] bcast_S_S256x65536 main_cst_0
  let main_v6 : IVec S256x65536 1 := cmpf .olt main_v4 main_v5
  let main_c_1 : IVec S_ 1 := constantI S_ 1 1#1
  let main_v7 : IVec S_ 1 := (fun x v => Host.reduce IntOp.andi x v reducesTo_S256x65536_S_d0_1 h_S_) main_v6 main_c_1
  let main_v8 : IVec S_ 1 := andi main_v3 main_v7
  main_v8
-- ==== Kernel.lean ====
abbrev S256x65536 : Shape := ⟨2, ![256, 65536]⟩
abbrev S256x5 : Shape := ⟨2, ![256, 5]⟩
abbrev S128x8192 : Shape := ⟨2, ![128, 8192]⟩
abbrev S128x5 : Shape := ⟨2, ![128, 5]⟩
abbrev S128 : Shape := ⟨1, ![128]⟩
abbrev S128x1 : Shape := ⟨2, ![128, 1]⟩
abbrev S256x1 : Shape := ⟨2, ![256, 1]⟩
abbrev S256 : Shape := ⟨1, ![256]⟩
abbrev S_ : Shape := ⟨0, ![]⟩
abbrev S1 : Shape := ⟨1, ![1]⟩

abbrev nBuf : Space → Nat
  | .hbm => 61
  | .vmem => 7
  | .smem => 0
  | _ => 0

abbrev bufTy : (tb : Table) → Fin (tcTables nBuf tb) → BufTy
  | .hbm, ⟨0, _⟩ => ⟨S256x65536, .f32⟩
  | .hbm, ⟨1, _⟩ => ⟨S256x65536, .f32⟩
  | .hbm, ⟨2, _⟩ => ⟨S256x5, .f32⟩
  | .hbm, ⟨3, _⟩ => ⟨S256x1, .f32⟩
  | .hbm, ⟨4, _⟩ => ⟨S256, .f32⟩
  | .hbm, ⟨5, _⟩ => ⟨S256x1, .f32⟩
  | .hbm, ⟨6, _⟩ => ⟨S256, .f32⟩
  | .hbm, ⟨7, _⟩ => ⟨S256x1, .f32⟩
  | .hbm, ⟨8, _⟩ => ⟨S256, .f32⟩
  | .hbm, ⟨9, _⟩ => ⟨S256x1, .f32⟩
  | .hbm, ⟨10, _⟩ => ⟨S256, .f32⟩
  | .hbm, ⟨11, _⟩ => ⟨S256x1, .f32⟩
  | .hbm, ⟨12, _⟩ => ⟨S256, .f32⟩
  | .hbm, ⟨13, _⟩ => ⟨S256, .f32⟩
  | .hbm, ⟨14, _⟩ => ⟨S_, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S_, .f32⟩
  | .hbm, ⟨30, _⟩ => ⟨S256, .f32⟩
  | .hbm, ⟨31, _⟩ => ⟨S256, .f32⟩
  | .hbm, ⟨32, _⟩ => ⟨S256, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S_, .f32⟩
  | .hbm, ⟨38, _⟩ => ⟨S256, .f32⟩
  | .hbm, ⟨39, _⟩ => ⟨S256, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S256, .f32⟩
  | .hbm, ⟨45, _⟩ => ⟨S_, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x5, .f32⟩
  | .local _ .vmem, ⟨5, _⟩ => ⟨S128x5, .f32⟩
  | .local _ .vmem, ⟨6, _⟩ => ⟨S128x5, .f32⟩
  | _, _ => ⟨S256x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_4 : Ref sig .tc := ⟨.hbm, 37, rfl⟩
abbrev main_v30 : Ref sig .tc := ⟨.hbm, 38, rfl⟩
abbrev main_v31 : Ref sig .tc := ⟨.hbm, 39, rfl⟩
abbrev main_cst_5 : Ref sig .tc := ⟨.hbm, 40, rfl⟩
abbrev main_v32 : Ref sig .tc := ⟨.hbm, 41, rfl⟩
abbrev main_cst_6 : Ref sig .tc := ⟨.hbm, 42, rfl⟩
abbrev main_v33 : Ref sig .tc := ⟨.hbm, 43, rfl⟩
abbrev main_v34 : Ref sig .tc := ⟨.hbm, 44, rfl⟩
abbrev main_cst_7 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_8 : Ref sig .tc := ⟨.hbm, 49, rfl⟩
abbrev main_v38 : Ref sig .tc := ⟨.hbm, 50, rfl⟩
abbrev main_cst_9 : Ref sig .tc := ⟨.hbm, 51, rfl⟩
abbrev main_cst_10 : Ref sig .tc := ⟨.hbm, 52, rfl⟩
abbrev main_v39 : Ref sig .tc := ⟨.hbm, 53, rfl⟩
abbrev main_v40 : Ref sig .tc := ⟨.hbm, 54, rfl⟩
abbrev main_cst_11 : Ref sig .tc := ⟨.hbm, 55, rfl⟩
abbrev main_v41 : Ref sig .tc := ⟨.hbm, 56, rfl⟩
abbrev main_cst_12 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v43 : BitVec 1 := Scalar.cmpi .eq arg1 c7_i32
  let v44 : BitVec 32 := Scalar.extui v43
  let c0_i32_24 : BitVec 32 := 0#32
  let v45 : BitVec 1 := Scalar.cmpi .ne v44 c0_i32_24
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S128x5_S128x5_0_0 : ∀ a, (![0, 0] : Fin 2 → Nat) a + S128x5.size a ≤ S128x5.size a
  h_S128x5 : 0 < S128x5.numel
  shapeCasts_S128x5_S128x5 : S128x5.ShapeCasts S128x5
  inb_S128x8192_S128x8192_0_0 : ∀ a, (![0, 0] : Fin 2 → Nat) a + S128x8192.size a ≤ S128x8192.size a
  h_S128x8192 : 0 < S128x8192.numel
  reduces_S128x8192_S128 : S128x8192.Reduces [1] S128
  shapeCasts_S128_S128x1 : S128.ShapeCasts S128x1
  inb_S128x5_S128x1_0_0 : ∀ a, (![0, 0] : Fin 2 → Nat) a + S128x1.size a ≤ S128x5.size a
  h_S128x1 : 0 < S128x1.numel
  shapeCasts_S128x1_S128x1 : S128x1.ShapeCasts S128x1
  inb_S128x5_S128x1_0_1 : ∀ a, (![0, 1] : Fin 2 → Nat) a + S128x1.size a ≤ S128x5.size a
  inb_S128x5_S128x1_0_2 : ∀ a, (![0, 2] : Fin 2 → Nat) a + S128x1.size a ≤ S128x5.size a
  inb_S128x5_S128x1_0_3 : ∀ a, (![0, 3] : Fin 2 → Nat) a + S128x1.size a ≤ S128x5.size a
  inb_S128x5_S128x1_0_4 : ∀ a, (![0, 4] : Fin 2 → Nat) a + S128x1.size a ≤ S128x5.size a
  slices_S256x5_S256x1_0_0 : S256x5.Slices ![0, 0] S256x1
  shapeCasts_S256x1_S256 : S256x1.ShapeCasts S256
  slices_S256x5_S256x1_0_1 : S256x5.Slices ![0, 1] S256x1
  slices_S256x5_S256x1_0_2 : S256x5.Slices ![0, 2] S256x1
  slices_S256x5_S256x1_0_3 : S256x5.Slices ![0, 3] S256x1
  slices_S256x5_S256x1_0_4 : S256x5.Slices ![0, 4] S256x1
  bcast_S_S256 : S_.BroadcastsInDim S256 (![] : Fin 0 → Fin S256.rank)
  reducesTo_S256_S_d0 : S256.ReducesTo [0] S_
  h_S_ : 0 < S_.numel
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S256x65536.size a
  hwx0_0 : ∀ i : grid0.Coords, EltTy.bits .f32 = 32 ∨ (Rect.block (s := S256x65536) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S256x65536.size a
  hwx0_1 : ∀ i : grid0.Coords, EltTy.bits .f32 = 32 ∨ (Rect.block (s := S256x65536) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x5.size a ≤ S256x5.size a
  hwx0_2 : ∀ i : grid0.Coords, EltTy.bits .f32 = 32 ∨ (Rect.block (s := S256x5) S128x5.size (cc0_transform_2 i) (hinb0_2 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x5.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S256x65536 : Shape := ⟨2, ![256, 65536]⟩
abbrev S_ : Shape := ⟨0, ![]⟩
abbrev S256 : Shape := ⟨1, ![256]⟩
abbrev S256x1 : Shape := ⟨2, ![256, 1]⟩
abbrev S1 : Shape := ⟨1, ![1]⟩

abbrev nBuf : Space → Nat
  | .hbm => 52
  | .vmem => 0
  | .smem => 0
  | _ => 0

abbrev bufTy : (tb : Table) → Fin (tcTables nBuf tb) → BufTy
  | .hbm, ⟨0, _⟩ => ⟨S256x65536, .f32⟩
  | .hbm, ⟨1, _⟩ => ⟨S256x65536, .f32⟩
  | .hbm, ⟨2, _⟩ => ⟨S256x65536, .f32⟩
  | .hbm, ⟨3, _⟩ => ⟨S256x65536, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x65536, .f32⟩
  | .hbm, ⟨15, _⟩ => ⟨S256x65536, .f32⟩
  | .hbm, ⟨16, _⟩ => ⟨S_, .f32⟩
  | .hbm, ⟨17, _⟩ => ⟨S256, .f32⟩
  | .hbm, ⟨18, _⟩ => ⟨S256x1, .f32⟩
  | .hbm, ⟨19, _⟩ => ⟨S_, .f32⟩
  | .hbm, ⟨20, _⟩ => ⟨S256x1, .f32⟩
  | .hbm, ⟨21, _⟩ => ⟨S256x1, .f32⟩
  | .hbm, ⟨22, _⟩ => ⟨S256x65536, .f32⟩
  | .hbm, ⟨23, _⟩ => ⟨S256x65536, .f32⟩
  | .hbm, ⟨24, _⟩ => ⟨S256x65536, .f32⟩
  | .hbm, ⟨25, _⟩ => ⟨S_, .f32⟩
  | .hbm, ⟨26, _⟩ => ⟨S256, .f32⟩
  | .hbm, ⟨27, _⟩ => ⟨S256x65536, .f32⟩
  | .hbm, ⟨28, _⟩ => ⟨S_, .f32⟩
  | .hbm, ⟨29, _⟩ => ⟨S256, .f32⟩
  | .hbm, ⟨30, _⟩ => ⟨S256x65536, .f32⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1, .f32⟩
  | _, _ => ⟨S256x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_9 : Ref sig .tc := ⟨.hbm, 39, rfl⟩
abbrev main_v27 : Ref sig .tc := ⟨.hbm, 40, rfl⟩
abbrev main_v28 : Ref sig .tc := ⟨.hbm, 41, rfl⟩
abbrev main_cst_10 : Ref sig .tc := ⟨.hbm, 42, rfl⟩
abbrev main_v29 : Ref sig .tc := ⟨.hbm, 43, rfl⟩
abbrev main_cst_11 : Ref sig .tc := ⟨.hbm, 44, rfl⟩
abbrev main_v30 : Ref sig .tc := ⟨.hbm, 45, rfl⟩
abbrev main_cst_12 : Ref sig .tc := ⟨.hbm, 46, rfl⟩
abbrev main_v31 : Ref sig .tc := ⟨.hbm, 47, rfl⟩
abbrev main_cst_13 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  reducesTo_S256x65536_S_d0_1 : S256x65536.ReducesTo [0, 1] S_
  h_S_ : 0 < S_.numel
  reducesTo_S256x65536_S256_d1 : S256x65536.ReducesTo [1] S256
  bcast_S256_S256x1_0 : S256.BroadcastsInDim S256x1 (![0] : Fin 1 → Fin S256x1.rank)
  bcast_S_S256x1 : S_.BroadcastsInDim S256x1 (![] : Fin 0 → Fin S256x1.rank)
  bcast_S256x1_S256x65536_0_1 : S256x1.BroadcastsInDim S256x65536 (![0, 1] : Fin 2 → Fin S256x65536.rank)
  bcast_S_S256 : S_.BroadcastsInDim S256 (![] : Fin 0 → Fin S256.rank)
  reducesTo_S256_S_d0 : S256.ReducesTo [0] S_
  shapeCasts_S_S1 : S_.ShapeCasts S1

variable [Facts₀]

class Facts : Prop extends Facts₀ where

variable [Facts]
-- ==== Proof.LibKeepdims.lean ====
/-
  Keepdims layouts and last-axis reductions of a matrix, read at indices written by coordinates.

  A sum or maximum taken with the reduced axis kept prints as a reduction to a vector [a], a cast of that vector to a
  column [a, 1], and a broadcast of the column across [a, b]. Read at (p, c), the column is the vector at p and the
  broadcast is the column at p; a vector [n] viewed as [1, 1, n] keeps its entries. A reduction of a matrix [a, b]
  over its last axis reads, at row p, the entries (p, k) for every k: a float sum is their sum, a float maximum from
  −∞ is their maximum folded from −∞. The words of −∞ and of 1.0 denote −∞ and 1.
  Every statement is generic in the extents.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector [a] cast to a column [a, 1] reads, at (p, u), the vector at p. -/
theorem cast_vec_col {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast to [a, b] reads, at (p, c), the column at p. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [n] cast to [1, 1, n] reads, at (u, u', j), the vector at j. -/
theorem cast_vec_11n {n : ℕ} (x : (⟨1, ![n]⟩ : Shape).Idx → α) (h : (⟨1, ![n]⟩ : Shape).ShapeCasts ⟨3, ![1, 1, n]⟩)
    (u u' : Fin 1) (j : Fin n) : shapeCast ⟨3, ![1, 1, n]⟩ x h (ix3 u u' j) = x (ix1 j) :=
  shapeCast_apply x h _ _ (by
    have hu : u.val = 0 := by omega
    have hu' : u'.val = 0 := by omega
    rw [Shape.rowMajor_val_three, Shape.rowMajor_val_one]
    show j.val = (u.val * 1 + u'.val) * n + j.val
    rw [hu, hu']
    simp)

/-- Over row p of a matrix, the index a last-axis reduction inserts coordinate k into is (p, k). -/
theorem lift_row {a b : ℕ} (h : (⟨2, ![a, b]⟩ : Shape).Reduces [1] ⟨1, ![a]⟩) (p : Fin a) (k : Fin b) :
    h.lift (ix1 p) k = ix2 p k :=
  funext fun c => Fin.ext (match c with | ⟨0, _⟩ => rfl | ⟨1, _⟩ => rfl)

/-- A float sum of a matrix over its last axis, at row p, is the sum of that row. -/
theorem sum_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (lift_row h p k))

/-- The word of f32's −∞ denotes −∞. -/
theorem ofBits_neg_inf : Ideal.ofBits .f32 0xFF800000#32 = (⊥ : EReal) := by simp [Ideal.ofBits, Ideal.ieee]

/-- The word of f32's 1.0 denotes 1. -/
theorem ofBits_one_f32 : Ideal.ofBits .f32 0x3F800000#32 = (1 : EReal) :=
  IdealRules.sign_bit.ideal_onePat .f32

/-- The word of bf16's 1.0 denotes 1. -/
theorem ofBits_one_bf16 : Ideal.ofBits .bf16 0x3F80#16 = (1 : EReal) :=
  IdealRules.sign_bit.ideal_onePat .bf16

/-- A float maximum of a matrix over its last axis from −∞, at row p, is the maximum of that row from −∞. -/
theorem max_row {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src _ h hφ hacc (ix1 p)).trans ?_
  show (Finset.univ : Finset (Fin b)).fold max (Ideal.ofBits .f32 0xFF800000#32) (src ∘ h.lift (ix1 p)) = _
  rw [ofBits_neg_inf]
  exact congrArg (fun g : Fin b → EReal => (Finset.univ : Finset (Fin b)).fold max ⊥ g)
    (funext fun k => congrArg src (lift_row h p k))

end Cert.LibKeepdims

end
-- ==== Proof.TileSums.lean ====
/-
  What one grid point adds to the running row statistics.

  The body reads the y_pred tile `x0` and the y_true tile `x1` (128 rows by 8192 positions) and, for each row `r` of
  the tile, adds to the five columns of the 128-by-5 accumulator the five tile sums
      ∑ x1,  ∑ x0,  ∑ x1·x0,  ∑ x1·x1,  ∑ x0·x0        (over the 8192 positions of row r).
  Each store's value is "the column read back, plus a lane sum kept as a column": read at row `r` that is the old
  entry plus the row's sum.
-/
import proofs.«138629_j63720134803972_1_alg».proof.Proof.Gen.KernelIdeal.Frame
import proofs.«138629_j63720134803972_1_alg».proof.Proof.LibKeepdims
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.TileSums

open Cert.KernelIdeal Cert.KernelIdeal.Gen Cert.LibKeepdims

/-- The five sums of row `r` of a pair of tiles (`x0`: y_pred's tile, `x1`: y_true's). -/
def tileStat (x0 x1 : Vec Ideal S128x8192 .f32) (r : Fin 128) : Fin 5 → EReal
  | ⟨0, _⟩ => ∑ l : Fin 8192, x1 (ix2 r l)
  | ⟨1, _⟩ => ∑ l : Fin 8192, x0 (ix2 r l)
  | ⟨2, _⟩ => ∑ l : Fin 8192, x1 (ix2 r l) * x0 (ix2 r l)
  | ⟨3, _⟩ => ∑ l : Fin 8192, x1 (ix2 r l) * x1 (ix2 r l)
  | ⟨4, _⟩ => ∑ l : Fin 8192, x0 (ix2 r l) * x0 (ix2 r l)
  | ⟨_ + 5, h⟩ => absurd h (Nat.not_lt.2 (Nat.le_add_left _ _))

/-- Column 0's store: the old entry plus the row sum of `x1`. -/
theorem pay7_apply (x1 : Vec Ideal S128x8192 .f32) (v : Vec Ideal S128x1 .f32) (r : Fin 128) :
    k0_pay7 (F := Ideal) x1 v (ix2 r 0) = v (ix2 r 0) + ∑ l : Fin 8192, x1 (ix2 r l) := by
  unfold k0_pay7
  simp only [shapeCast_self]
  refine congrArg (v (ix2 r 0) + ·) ?_
  refine (cast_vec_col _ _ r 0).trans ?_
  exact sum_row _ _ _ _ r

/-- Column 4's store: the old entry plus the row sum of `x0·x0`. -/
theorem pay3_apply (x0 : Vec Ideal S128x8192 .f32) (v : Vec Ideal S128x1 .f32) (r : Fin 128) :
    k0_pay3 (F := Ideal) (k0_pay6 x0) v (ix2 r 0) = v (ix2 r 0) + ∑ l : Fin 8192, x0 (ix2 r l) * x0 (ix2 r l) := by
  unfold k0_pay3 k0_pay6
  simp only [shapeCast_self]
  refine congrArg (v (ix2 r 0) + ·) ?_
  refine (cast_vec_col _ _ r 0).trans ?_
  exact sum_row _ _ _ _ r

/-- Column 1's store: the old entry plus the row sum of `x0`. -/
theorem pay8_apply (x0 : Vec Ideal S128x8192 .f32) (v : Vec Ideal S128x1 .f32) (r : Fin 128) :
    k0_pay8 (F := Ideal) x0 v (ix2 r 0) = v (ix2 r 0) + ∑ l : Fin 8192, x0 (ix2 r l) := by
  unfold k0_pay8
  simp only [shapeCast_self]
  refine congrArg (v (ix2 r 0) + ·) ?_
  refine (cast_vec_col _ _ r 0).trans ?_
  exact sum_row _ _ _ _ r

/-- Column 2's store: the old entry plus the row sum of `x1·x0`. -/
theorem pay1_apply (x0 x1 : Vec Ideal S128x8192 .f32) (v : Vec Ideal S128x1 .f32) (r : Fin 128) :
    k0_pay1 (F := Ideal) (k0_pay9 x1 x0 v) (ix2 r 0) = v (ix2 r 0) + ∑ l : Fin 8192, x1 (ix2 r l) * x0 (ix2 r l) := by
  unfold k0_pay1 k0_pay9
  simp only [shapeCast_self]
  refine congrArg (v (ix2 r 0) + ·) ?_
  refine (cast_vec_col _ _ r 0).trans ?_
  exact sum_row _ _ _ _ r

/-- Column 3's store: the old entry plus the row sum of `x1·x1`. -/
theorem pay2_apply (x1 : Vec Ideal S128x8192 .f32) (v : Vec Ideal S128x1 .f32) (r : Fin 128) :
    k0_pay2 (F := Ideal) (k0_pay5 x1) v (ix2 r 0) = v (ix2 r 0) + ∑ l : Fin 8192, x1 (ix2 r l) * x1 (ix2 r l) := by
  unfold k0_pay2 k0_pay5
  simp only [shapeCast_self]
  refine congrArg (v (ix2 r 0) + ·) ?_
  refine (cast_vec_col _ _ r 0).trans ?_
  exact sum_row _ _ _ _ r

/-! ## Reading a buffer written column by column -/

section Columns

variable {Val : EltTy → Type} [∀ e, Nonempty (Val e)]

/-- Row `r` of the one-column rectangle at column `k` is entry `(r, k)` of the 128-by-5 buffer. -/
theorem col_emb (k : ℕ) (hk : k < 5) (inb : ∀ a, (![0, k] : Fin 2 → ℕ) a + (![128, 1] : Fin 2 → ℕ) a ≤ S128x5.size a)
    (r : Fin 128) :
    (Rect.unit (s := S128x5) ![0, k] ![128, 1] inb).emb (ix2 r (0 : Fin 1)) = ix2 r (⟨k, hk⟩ : Fin 5) :=
  funext fun a => Fin.ext (by
    match a with
    | ⟨0, _⟩ => show 0 + 1 * r.val = r.val; omega
    | ⟨1, _⟩ => show k + 1 * 0 = k; omega)

/-- Entry `(r, k')` is outside the one-column rectangle at another column `k`. -/
theorem col_not_mem (k k' : ℕ) (hk' : k' < 5) (hne : k' ≠ k)
    (inb : ∀ a, (![0, k] : Fin 2 → ℕ) a + (![128, 1] : Fin 2 → ℕ) a ≤ S128x5.size a) (r : Fin 128) :
    ix2 r (⟨k', hk'⟩ : Fin 5) ∉ (Rect.unit (s := S128x5) ![0, k] ![128, 1] inb).set := by
  intro h
  have h1 : k ≤ k' ∧ k' < k + 1 := (Rect.mem_set_unit.mp h) (1 : Fin 2)
  omega

/-- Under a last store into column `k`, entry `(r, k)` is that store's value at row `r`. -/
theorem canon_col_hit (k : ℕ) (hk : k < 5) (inb : ∀ a, (![0, k] : Fin 2 → ℕ) a + (![128, 1] : Fin 2 → ℕ) a ≤ S128x5.size a)
    (w : (Rect.unit (s := S128x5) ![0, k] ![128, 1] inb).shape.Idx → Val .f32) (L : List (View.Piece Val S128x5 .f32))
    (r : Fin 128) :
    View.canon ((⟨Rect.unit (s := S128x5) ![0, k] ![128, 1] inb, w⟩ : View.Piece Val S128x5 .f32) :: L)
        (ix2 r (⟨k, hk⟩ : Fin 5)) = w (ix2 r (0 : Fin 1)) :=
  (congrArg _ (col_emb k hk inb r).symm).trans (View.canon_cons_emb _ w L _)

/-- A last store into another column leaves entry `(r, k')` as the earlier stores left it. -/
theorem canon_col_skip (k k' : ℕ) (hk' : k' < 5) (hne : k' ≠ k)
    (inb : ∀ a, (![0, k] : Fin 2 → ℕ) a + (![128, 1] : Fin 2 → ℕ) a ≤ S128x5.size a)
    (w : (Rect.unit (s := S128x5) ![0, k] ![128, 1] inb).shape.Idx → Val .f32) (L : List (View.Piece Val S128x5 .f32))
    (r : Fin 128) :
    View.canon ((⟨Rect.unit (s := S128x5) ![0, k] ![128, 1] inb, w⟩ : View.Piece Val S128x5 .f32) :: L)
        (ix2 r (⟨k', hk'⟩ : Fin 5)) = View.canon L (ix2 r (⟨k', hk'⟩ : Fin 5)) :=
  View.canon_cons_of_not_mem _ L (col_not_mem k k' hk' hne inb r)

end Columns

theorem hz2 : (![0, 0] : Fin 2 → Nat) = fun _ => 0 := funext fun a => by fin_cases a <;> rfl

/-! ## The five column stores over an accumulator's contents -/

/-- The accumulator `xs` after the five column stores, each of "the column of `xs` plus the tile's row sums": entry
    `(r, k)` is the old entry plus statistic `k` of row `r` of the tiles. -/
theorem canon_five
    (inb4 : ∀ a, (![0, 4] : Fin 2 → ℕ) a + (![128, 1] : Fin 2 → ℕ) a ≤ S128x5.size a)
    (inb3 : ∀ a, (![0, 3] : Fin 2 → ℕ) a + (![128, 1] : Fin 2 → ℕ) a ≤ S128x5.size a)
    (inb2 : ∀ a, (![0, 2] : Fin 2 → ℕ) a + (![128, 1] : Fin 2 → ℕ) a ≤ S128x5.size a)
    (inb1 : ∀ a, (![0, 1] : Fin 2 → ℕ) a + (![128, 1] : Fin 2 → ℕ) a ≤ S128x5.size a)
    (inb0 : ∀ a, (![0, 0] : Fin 2 → ℕ) a + (![128, 1] : Fin 2 → ℕ) a ≤ S128x5.size a)
    (x0 x1 : Vec Ideal S128x8192 .f32) (xs : Vec Ideal S128x5 .f32) (r : Fin 128) (k : Fin 5) :
    View.canon (Val := Elt Ideal)
      [⟨Rect.unit (s := S128x5) ![0, 4] ![128, 1] inb4,
          k0_pay3 (F := Ideal) (k0_pay6 x0) (View.ld xs (Rect.unit (s := S128x5) ![0, 4] ![128, 1] inb4))⟩,
        ⟨Rect.unit (s := S128x5) ![0, 3] ![128, 1] inb3,
          k0_pay2 (F := Ideal) (k0_pay5 x1) (View.ld xs (Rect.unit (s := S128x5) ![0, 3] ![128, 1] inb3))⟩,
        ⟨Rect.unit (s := S128x5) ![0, 2] ![128, 1] inb2,
          k0_pay1 (F := Ideal) (k0_pay9 x1 x0 (View.ld xs (Rect.unit (s := S128x5) ![0, 2] ![128, 1] inb2)))⟩,
        ⟨Rect.unit (s := S128x5) ![0, 1] ![128, 1] inb1,
          k0_pay8 (F := Ideal) x0 (View.ld xs (Rect.unit (s := S128x5) ![0, 1] ![128, 1] inb1))⟩,
        ⟨Rect.unit (s := S128x5) ![0, 0] ![128, 1] inb0,
          k0_pay7 (F := Ideal) x1 (View.ld xs (Rect.unit (s := S128x5) ![0, 0] ![128, 1] inb0))⟩]
      (ix2 r k) = xs (ix2 r k) + tileStat x0 x1 r k := by
  match k with
  | ⟨4, _⟩ =>
    refine (canon_col_hit 4 (by norm_num) _ _ _ r).trans ?_
    refine (pay3_apply _ _ r).trans ?_
    exact congrArg (· + _) (congrArg xs (col_emb 4 (by norm_num) _ r))
  | ⟨3, _⟩ =>
    refine (canon_col_skip 4 3 (by norm_num) (by norm_num) _ _ _ r).trans ?_
    refine (canon_col_hit 3 (by norm_num) _ _ _ r).trans ?_
    refine (pay2_apply _ _ r).trans ?_
    exact congrArg (· + _) (congrArg xs (col_emb 3 (by norm_num) _ r))
  | ⟨2, _⟩ =>
    refine (canon_col_skip 4 2 (by norm_num) (by norm_num) _ _ _ r).trans ?_
    refine (canon_col_skip 3 2 (by norm_num) (by norm_num) _ _ _ r).trans ?_
    refine (canon_col_hit 2 (by norm_num) _ _ _ r).trans ?_
    refine (pay1_apply _ _ _ r).trans ?_
    exact congrArg (· + _) (congrArg xs (col_emb 2 (by norm_num) _ r))
  | ⟨1, _⟩ =>
    refine (canon_col_skip 4 1 (by norm_num) (by norm_num) _ _ _ r).trans ?_
    refine (canon_col_skip 3 1 (by norm_num) (by norm_num) _ _ _ r).trans ?_
    refine (canon_col_skip 2 1 (by norm_num) (by norm_num) _ _ _ r).trans ?_
    refine (canon_col_hit 1 (by norm_num) _ _ _ r).trans ?_
    refine (pay8_apply _ _ r).trans ?_
    exact congrArg (· + _) (congrArg xs (col_emb 1 (by norm_num) _ r))
  | ⟨0, _⟩ =>
    refine (canon_col_skip 4 0 (by norm_num) (by norm_num) _ _ _ r).trans ?_
    refine (canon_col_skip 3 0 (by norm_num) (by norm_num) _ _ _ r).trans ?_
    refine (canon_col_skip 2 0 (by norm_num) (by norm_num) _ _ _ r).trans ?_
    refine (canon_col_skip 1 0 (by norm_num) (by norm_num) _ _ _ r).trans ?_
    refine (canon_col_hit 0 (by norm_num) _ _ _ r).trans ?_
    refine (pay7_apply _ _ r).trans ?_
    exact congrArg (· + _) (congrArg xs (col_emb 0 (by norm_num) _ r))
  | ⟨n + 5, h⟩ => exact absurd h (by omega)

/-! ## What each case of the body leaves in the accumulator and in the output block -/

/-- A point that is neither the first nor the last of its row block: every column of the accumulator `xs` gains its
    tile sum. -/
theorem scratch_B (c : Dev nD) (i : grid0.Coords) (a2 : Memref sig .tc .vmem S128x8192 .f32) (h2 : a2.IsWhole)
    (a3 : Memref sig .tc .vmem S128x8192 .f32) (h3 : a3.IsWhole) (a4 : Memref sig .tc .vmem S128x5 .f32) (h4 : a4.IsWhole)
    (a5 : Memref sig .tc .vmem S128x5 .f32) (h5 : a5.IsWhole) (hc0 : ¬cond0_0 i) (hc1 : ¬cond0_1 i)
    (x0 x1 : Vec Ideal S128x8192 .f32) (xs : Vec Ideal S128x5 .f32) (r : Fin 128) (k : Fin 5) :
    sout0_B_0 (F := Ideal) c i a2 h2 a3 h3 a4 h4 a5 h5 hc0 hc1 x0 x1 xs (ix2 r k)
      = xs (ix2 r k) + tileStat x0 x1 r k := by
  unfold sout0_B_0
  rw [View.read_writes_eq_canon _ _ _ (scover0_B_0 c i a2 h2 a3 h3 a4 h4 a5 h5 hc0 hc1 x0 x1 xs)]
  unfold kernelRun0_B
  dsimp only
  sl_unfold_words
  simp only [View.readAt_eq_ld, h2.read_unread, h3.read_unread, h5.read_unread, View.ld_unit_zero (S := S128x8192) hz2]
  exact canon_five _ _ _ _ _ x0 x1 xs r k

/-- The last point of a row block: the accumulator gains the tile sums likewise … -/
theorem scratch_C (c : Dev nD) (i : grid0.Coords) (a2 : Memref sig .tc .vmem S128x8192 .f32) (h2 : a2.IsWhole)
    (a3 : Memref sig .tc .vmem S128x8192 .f32) (h3 : a3.IsWhole) (a4 : Memref sig .tc .vmem S128x5 .f32) (h4 : a4.IsWhole)
    (a5 : Memref sig .tc .vmem S128x5 .f32) (h5 : a5.IsWhole) (hc0 : ¬cond0_0 i) (hc1 : cond0_1 i)
    (x0 x1 : Vec Ideal S128x8192 .f32) (xs : Vec Ideal S128x5 .f32) (r : Fin 128) (k : Fin 5) :
    sout0_C_0 (F := Ideal) c i a2 h2 a3 h3 a4 h4 a5 h5 hc0 hc1 x0 x1 xs (ix2 r k)
      = xs (ix2 r k) + tileStat x0 x1 r k := by
  unfold sout0_C_0
  rw [View.read_writes_eq_canon _ _ _ (scover0_C_0 c i a2 h2 a3 h3 a4 h4 a5 h5 hc0 hc1 x0 x1 xs)]
  unfold kernelRun0_C
  dsimp only
  sl_unfold_words
  simp only [View.readAt_eq_ld, h2.read_unread, h3.read_unread, h5.read_unread, View.ld_unit_zero (S := S128x8192) hz2]
  exact canon_five _ _ _ _ _ x0 x1 xs r k

/-- … and the output block is the accumulator read back whole after those stores: the same entries. -/
theorem out_C (c : Dev nD) (i : grid0.Coords) (a2 : Memref sig .tc .vmem S128x8192 .f32) (h2 : a2.IsWhole)
    (a3 : Memref sig .tc .vmem S128x8192 .f32) (h3 : a3.IsWhole) (a4 : Memref sig .tc .vmem S128x5 .f32) (h4 : a4.IsWhole)
    (a5 : Memref sig .tc .vmem S128x5 .f32) (h5 : a5.IsWhole) (hc0 : ¬cond0_0 i) (hc1 : cond0_1 i)
    (x0 x1 : Vec Ideal S128x8192 .f32) (xs : Vec Ideal S128x5 .f32) (r : Fin 128) (k : Fin 5) :
    out0_C_2 (F := Ideal) c i a2 h2 a3 h3 a4 h4 a5 h5 hc0 hc1 x0 x1 xs (ix2 r k)
      = xs (ix2 r k) + tileStat x0 x1 r k := by
  unfold out0_C_2
  rw [View.read_writes_eq_canon _ _ _ (cover0_C_2 c i a2 h2 a3 h3 a4 h4 a5 h5 hc0 hc1 x0 x1 xs)]
  unfold kernelRun0_C
  dsimp only
  sl_unfold_words
  simp only [View.readAt_eq_ld, h2.read_unread, h3.read_unread, h5.read_unread, View.ld_unit_zero (S := S128x8192) hz2]
  refine (congrFun (View.canon_unit_zero (S := S128x5) hz2 _ _) _).trans ?_
  refine (congrFun (View.readCov_eq_canon' _ _ _) _).trans ?_
  have hid : (Rect.unit (s := S128x5) ![0, 0] ![128, 5] inb_S128x5_S128x5_0_0).toLoadRect.idx (ix2 r k) = ix2 r k :=
    funext fun a => Fin.ext (by
      match a with
      | ⟨0, _⟩ => show 0 + 1 * r.val = r.val; omega
      | ⟨1, _⟩ => show 0 + 1 * k.val = k.val; omega)
  refine (congrArg _ hid).trans ?_
  exact canon_five _ _ _ _ _ x0 x1 xs r k

/-- The one store of the first point of a row block into the whole accumulator: zeros. -/
theorem canon_zero (inb : ∀ a, (![0, 0] : Fin 2 → ℕ) a + S128x5.size a ≤ S128x5.size a) (y : S128x5.Idx) :
    View.canon (Val := Elt Ideal)
      [(⟨Rect.unit (s := S128x5) ![0, 0] S128x5.size inb, k0_pay4 (F := Ideal)⟩ : View.Piece (Elt Ideal) S128x5 .f32)] y
      = Ideal.ofBits .f32 0x00000000#32 := by
  refine (congrFun (View.canon_unit_zero (S := S128x5) hz2 inb _) y).trans ?_
  unfold k0_pay4
  simp only [shapeCast_self]
  rfl

/-- The first point of a row block: the accumulator is zeroed, then every column gains its tile sum; each column's
    old value is read back through the columns stored before it, down to the zeros. -/
theorem scratch_A (c : Dev nD) (i : grid0.Coords) (a2 : Memref sig .tc .vmem S128x8192 .f32) (h2 : a2.IsWhole)
    (a3 : Memref sig .tc .vmem S128x8192 .f32) (h3 : a3.IsWhole) (a4 : Memref sig .tc .vmem S128x5 .f32) (h4 : a4.IsWhole)
    (a5 : Memref sig .tc .vmem S128x5 .f32) (h5 : a5.IsWhole) (hc0 : cond0_0 i) (hc1 : ¬cond0_1 i)
    (x0 x1 : Vec Ideal S128x8192 .f32) (r : Fin 128) (k : Fin 5) :
    sout0_A_0 (F := Ideal) c i a2 h2 a3 h3 a4 h4 a5 h5 hc0 hc1 x0 x1 (ix2 r k)
      = Ideal.ofBits .f32 0x00000000#32 + tileStat x0 x1 r k := by
  unfold sout0_A_0
  rw [View.read_writes_eq_canon _ _ _ (scover0_A_0 c i a2 h2 a3 h3 a4 h4 a5 h5 hc0 hc1 x0 x1)]
  unfold kernelRun0_A
  dsimp only
  sl_unfold_words
  simp only [View.readAt_eq_ld, h2.read_unread, h3.read_unread, View.ld_unit_zero (S := S128x8192) hz2]
  match k with
  | ⟨4, _⟩ =>
    refine (canon_col_hit 4 (by norm_num) _ _ _ r).trans ?_
    refine (pay3_apply _ _ r).trans ?_
    refine congrArg (· + _) ?_
    refine (congrFun (View.readCov_eq_canon' _ _ _) _).trans ?_
    refine (congrArg _ (col_emb 4 (by norm_num) _ r)).trans ?_
    refine (canon_col_skip 3 4 (by norm_num) (by norm_num) _ _ _ r).trans ?_
    refine (canon_col_skip 2 4 (by norm_num) (by norm_num) _ _ _ r).trans ?_
    refine (canon_col_skip 1 4 (by norm_num) (by norm_num) _ _ _ r).trans ?_
    refine (canon_col_skip 0 4 (by norm_num) (by norm_num) _ _ _ r).trans ?_
    exact canon_zero _ _
  | ⟨3, _⟩ =>
    refine (canon_col_skip 4 3 (by norm_num) (by norm_num) _ _ _ r).trans ?_
    refine (canon_col_hit 3 (by norm_num) _ _ _ r).trans ?_
    refine (pay2_apply _ _ r).trans ?_
    refine congrArg (· + _) ?_
    refine (congrFun (View.readCov_eq_canon' _ _ _) _).trans ?_
    refine (congrArg _ (col_emb 3 (by norm_num) _ r)).trans ?_
    refine (canon_col_skip 2 3 (by norm_num) (by norm_num) _ _ _ r).trans ?_
    refine (canon_col_skip 1 3 (by norm_num) (by norm_num) _ _ _ r).trans ?_
    refine (canon_col_skip 0 3 (by norm_num) (by norm_num) _ _ _ r).trans ?_
    exact canon_zero _ _
  | ⟨2, _⟩ =>
    refine (canon_col_skip 4 2 (by norm_num) (by norm_num) _ _ _ r).trans ?_
    refine (canon_col_skip 3 2 (by norm_num) (by norm_num) _ _ _ r).trans ?_
    refine (canon_col_hit 2 (by norm_num) _ _ _ r).trans ?_
    refine (pay1_apply _ _ _ r).trans ?_
    refine congrArg (· + _) ?_
    refine (congrFun (View.readCov_eq_canon' _ _ _) _).trans ?_
    refine (congrArg _ (col_emb 2 (by norm_num) _ r)).trans ?_
    refine (canon_col_skip 1 2 (by norm_num) (by norm_num) _ _ _ r).trans ?_
    refine (canon_col_skip 0 2 (by norm_num) (by norm_num) _ _ _ r).trans ?_
    exact canon_zero _ _
  | ⟨1, _⟩ =>
    refine (canon_col_skip 4 1 (by norm_num) (by norm_num) _ _ _ r).trans ?_
    refine (canon_col_skip 3 1 (by norm_num) (by norm_num) _ _ _ r).trans ?_
    refine (canon_col_skip 2 1 (by norm_num) (by norm_num) _ _ _ r).trans ?_
    refine (canon_col_hit 1 (by norm_num) _ _ _ r).trans ?_
    refine (pay8_apply _ _ r).trans ?_
    refine congrArg (· + _) ?_
    refine (congrFun (View.readCov_eq_canon' _ _ _) _).trans ?_
    refine (congrArg _ (col_emb 1 (by norm_num) _ r)).trans ?_
    refine (canon_col_skip 0 1 (by norm_num) (by norm_num) _ _ _ r).trans ?_
    exact canon_zero _ _
  | ⟨0, _⟩ =>
    refine (canon_col_skip 4 0 (by norm_num) (by norm_num) _ _ _ r).trans ?_
    refine (canon_col_skip 3 0 (by norm_num) (by norm_num) _ _ _ r).trans ?_
    refine (canon_col_skip 2 0 (by norm_num) (by norm_num) _ _ _ r).trans ?_
    refine (canon_col_skip 1 0 (by norm_num) (by norm_num) _ _ _ r).trans ?_
    refine (canon_col_hit 0 (by norm_num) _ _ _ r).trans ?_
    refine (pay7_apply _ _ r).trans ?_
    refine congrArg (· + _) ?_
    refine (congrFun (View.readCov_eq_canon' _ _ _) _).trans ?_
    refine (congrArg _ (col_emb 0 (by norm_num) _ r)).trans ?_
    exact canon_zero _ _
  | ⟨n + 5, h⟩ => exact absurd h (by omega)

end Cert.KernelIdeal.TileSums

end
-- ==== Proof.Spec.lean ====
/-
  The loss, written once for each of the two programs, as plain functions on the extended reals.

  `p` is y_pred and `t` is y_true, both 256 rows of 65536 positions.
  * `rowStat p t r` are the five sums of row `r`:  ∑ t,  ∑ p,  ∑ t·p,  ∑ t·t,  ∑ p·p.
  * `tailLoss S` is what the kernel's closing arithmetic makes of a 256-by-5 table `S` of such sums: per row
      r = (sxy − sx·sy/L) / max(√max((sx2 − sx²/L)(sy2 − sy²/L), 0), ε),
    then  0.7 · (∑ᵣ (sx2 + sy2 − 2·sxy)) / (B·L)  +  0.3 · (∑ᵣ (1 − r)) / B.
  * `refLoss p t` is the reference: the mean squared difference over all entries, and per row Pearson's r of the
    mean-centred rows, `∑ tm·pm / max(√(∑ tm² · ∑ pm²), ε)`, combined with the same weights.
  Every float literal is kept as the extended real its pattern denotes (`Ideal.ofBits`); a host sum carries its
  initial value (the zero pattern) in front, as the host's reduction does.
-/
import Idealize.ShloMosaic.PureOps.Ideal
import Idealize.ShloMosaic.Lib.ValueIdx

noncomputable section

namespace Cert.SignalLoss

open Idealize.ShloMosaic Idealize.ShloMosaic.ValueIdx

/-- An input array: 256 rows of 65536 positions. -/
abbrev Arr : Type := (⟨2, ![256, 65536]⟩ : Shape).Idx → EReal
/-- The table of row statistics: 256 rows, 5 columns. -/
abbrev Sums : Type := (⟨2, ![256, 5]⟩ : Shape).Idx → EReal

/-- `+0.0`. -/
abbrev wZero : EReal := Ideal.ofBits .f32 0x00000000#32
/-- `65536.0`, the row length. -/
abbrev wL : EReal := Ideal.ofBits .f32 0x47800000#32
/-- `256.0`, the number of rows. -/
abbrev wB : EReal := Ideal.ofBits .f32 0x43800000#32
/-- `16777216.0`, the number of entries. -/
abbrev wBL : EReal := Ideal.ofBits .f32 0x4B800000#32
/-- `2.0`. -/
abbrev wTwo : EReal := Ideal.ofBits .f32 0x40000000#32
/-- `1.0`. -/
abbrev wOne : EReal := Ideal.ofBits .f32 0x3F800000#32
/-- The floor of the correlation's denominator (the f32 nearest 1e-8). -/
abbrev wEps : EReal := Ideal.ofBits .f32 0x322BCC77#32
/-- The weight of the mean squared error (the f32 nearest 0.7). -/
abbrev wMse : EReal := Ideal.ofBits .f32 0x3F333333#32
/-- The weight of the correlation term (the f32 nearest 0.3). -/
abbrev wCorr : EReal := Ideal.ofBits .f32 0x3E99999A#32

/-- The five sums of row `r`: ∑ t, ∑ p, ∑ t·p, ∑ t·t, ∑ p·p. -/
def rowStat (p t : Arr) (r : Fin 256) : Fin 5 → EReal
  | ⟨0, _⟩ => ∑ l : Fin 65536, t (ix2 r l)
  | ⟨1, _⟩ => ∑ l : Fin 65536, p (ix2 r l)
  | ⟨2, _⟩ => ∑ l : Fin 65536, t (ix2 r l) * p (ix2 r l)
  | ⟨3, _⟩ => ∑ l : Fin 65536, t (ix2 r l) * t (ix2 r l)
  | ⟨4, _⟩ => ∑ l : Fin 65536, p (ix2 r l) * p (ix2 r l)
  | ⟨_ + 5, h⟩ => absurd h (Nat.not_lt.2 (Nat.le_add_left _ _))

/-- The table of all rows' statistics. -/
def sums (p t : Arr) : Sums := fun i => rowStat p t (i 0) (i 1)

/-- The kernel's closing arithmetic on a table of row statistics. -/
def tailLoss (S : Sums) : EReal :=
  let sx : Fin 256 → EReal := fun r => S (ix2 r (0 : Fin 5))
  let sy : Fin 256 → EReal := fun r => S (ix2 r (1 : Fin 5))
  let sxy : Fin 256 → EReal := fun r => S (ix2 r (2 : Fin 5))
  let sx2 : Fin 256 → EReal := fun r => S (ix2 r (3 : Fin 5))
  let sy2 : Fin 256 → EReal := fun r => S (ix2 r (4 : Fin 5))
  let num : Fin 256 → EReal := fun r => sxy r - Ideal.div (sx r * sy r) wL
  let vx : Fin 256 → EReal := fun r => sx2 r - Ideal.div (sx r * sx r) wL
  let vy : Fin 256 → EReal := fun r => sy2 r - Ideal.div (sy r * sy r) wL
  let den : Fin 256 → EReal := fun r => max (Ideal.sqrt (max (vx r * vy r) wZero)) wEps
  let corr : EReal := Ideal.div (wZero + ∑ r : Fin 256, (wOne - Ideal.div (num r) (den r))) wB
  let mse : EReal := Ideal.div (wZero + ∑ r : Fin 256, ((sx2 r + sy2 r) - wTwo * sxy r)) (wB * wL)
  wMse * mse + wCorr * corr

/-- The reference's loss. -/
def refLoss (p t : Arr) : EReal :=
  let mean : Arr → Fin 256 → EReal := fun a r => Ideal.div (wZero + ∑ l : Fin 65536, a (ix2 r l)) wL
  let tm : Fin 256 → Fin 65536 → EReal := fun r l => t (ix2 r l) - mean t r
  let pm : Fin 256 → Fin 65536 → EReal := fun r l => p (ix2 r l) - mean p r
  let num : Fin 256 → EReal := fun r => wZero + ∑ l : Fin 65536, tm r l * pm r l
  let vt : Fin 256 → EReal := fun r => wZero + ∑ l : Fin 65536, tm r l * tm r l
  let vp : Fin 256 → EReal := fun r => wZero + ∑ l : Fin 65536, pm r l * pm r l
  let den : Fin 256 → EReal := fun r => max (Ideal.sqrt (vt r * vp r)) wEps
  let corr : EReal := Ideal.div (wZero + ∑ r : Fin 256, (wOne - Ideal.div (num r) (den r))) wB
  let mse : EReal := Ideal.div (wZero + ∑ j : (⟨2, ![256, 65536]⟩ : Shape).Idx, (p j - t j) * (p j - t j)) wBL
  wMse * mse + wCorr * corr

end Cert.SignalLoss

end
-- ==== Proof.Consts.lean ====
/-
  The float constants of the two programs whose VALUE the proof needs, as the extended reals their patterns denote:
  the additive zero, the factor 2 of the expanded square, and the three divisors (the row length 65536, the
  number of rows 256, and their product 2^24, which the reference spells as one literal and the kernel as a
  product of two). The weights 0.7 and 0.3, the floor 1e-8 of the denominator and the 1 of `1 - r` are the same
  pattern on both sides and are never evaluated.
-/
import Idealize.ShloMosaic.PureOps.Ideal

noncomputable section

namespace Cert.SignalLoss.Consts

open Idealize.ShloMosaic

/-- `+0.0` denotes `0`. -/
theorem ofBits_zero : Ideal.ofBits .f32 0x00000000#32 = 0 := by
  simp [Ideal.ofBits, Ideal.ieee]

/-- `2.0` denotes the real `2`. -/
theorem ofBits_two : Ideal.ofBits .f32 0x40000000#32 = ((2 : ℝ) : EReal) := by
  simp [Ideal.ofBits, Ideal.ieee, -EReal.coe_mul]; norm_num

/-- `256.0` denotes the real `256`. -/
theorem ofBits_256 : Ideal.ofBits .f32 0x43800000#32 = ((256 : ℝ) : EReal) := by
  simp [Ideal.ofBits, Ideal.ieee, -EReal.coe_mul]; norm_num

/-- `65536.0` denotes the real `65536`. -/
theorem ofBits_65536 : Ideal.ofBits .f32 0x47800000#32 = ((65536 : ℝ) : EReal) := by
  simp [Ideal.ofBits, Ideal.ieee, -EReal.coe_mul]; norm_num

/-- `16777216.0 = 2^24` denotes the real `16777216`. -/
theorem ofBits_2p24 : Ideal.ofBits .f32 0x4B800000#32 = ((16777216 : ℝ) : EReal) := by
  simp [Ideal.ofBits, Ideal.ieee, -EReal.coe_mul]; norm_num

end Cert.SignalLoss.Consts

end
-- ==== Proof.Algebra.lean ====
/-
  The real algebra between the two forms of the loss, over an abstract finite index type (a row's positions).

  With `sx = ∑ x`, `sy = ∑ y` and `N` the number of positions:
    * the sum of products of the centred values is the raw cross sum corrected by the means:
        ∑ (x - sx/N)(y - sy/N) = ∑ x·y - sx·sy/N            (`sum_centered_mul`)
      — the numerator of Pearson's r, and with `y = x` each of the two variances;
    * so the product of the two corrected square sums is a product of two sums of squares, hence nonnegative
      (`var_prod_nonneg`): clamping it at zero before the square root changes nothing;
    * the sum of squared differences is the two square sums minus twice the cross sum (`sum_sq_diff`).
  A row of 65536 positions summed in 8 consecutive tiles of 8192 is the row's sum (`sum_tiles`, in any commutative
  monoid: no finiteness), and a finite real sum coerces to the extended reals term by term (`coe_sum`).
-/
import Idealize.ShloMosaic.PureOps.Ideal
import Mathlib.Tactic.Ring
import Mathlib.Tactic.FieldSimp
import Mathlib.Tactic.Linarith

noncomputable section

namespace Cert.SignalLoss.Algebra

open Finset

/-- A finite sum of reals, read in the extended reals, is the sum of the terms read there. -/
theorem coe_sum {κ : Type*} (s : Finset κ) (f : κ → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

variable {ι : Type*} [Fintype ι]

/-- The cross sum of the centred values: `∑ (x - x̄)(y - ȳ) = ∑ x·y - (∑ x)(∑ y)/N`. -/
theorem sum_centered_mul (N : ℝ) (hcard : (Fintype.card ι : ℝ) = N) (hN : N ≠ 0) (x y : ι → ℝ) :
    ∑ i, (x i - (∑ j, x j) / N) * (y i - (∑ j, y j) / N)
      = (∑ i, x i * y i) - (∑ i, x i) * (∑ i, y i) / N := by
  have h : ∀ i, (x i - (∑ j, x j) / N) * (y i - (∑ j, y j) / N)
      = x i * y i - ((∑ j, y j) / N) * x i - ((∑ j, x j) / N) * y i + ((∑ j, x j) / N) * ((∑ j, y j) / N) :=
    fun i => by ring
  simp only [h, Finset.sum_add_distrib, Finset.sum_sub_distrib, ← Finset.mul_sum, Finset.sum_const,
    Finset.card_univ, nsmul_eq_mul, hcard]
  field_simp
  ring

/-- The product of the two mean-corrected square sums is a product of two sums of squares: nonnegative. -/
theorem var_prod_nonneg (N : ℝ) (hcard : (Fintype.card ι : ℝ) = N) (hN : N ≠ 0) (x y : ι → ℝ) :
    0 ≤ ((∑ i, x i * x i) - (∑ i, x i) * (∑ i, x i) / N) * ((∑ i, y i * y i) - (∑ i, y i) * (∑ i, y i) / N) := by
  rw [← sum_centered_mul N hcard hN x x, ← sum_centered_mul N hcard hN y y]
  exact mul_nonneg (Finset.sum_nonneg fun i _ => mul_self_nonneg _) (Finset.sum_nonneg fun i _ => mul_self_nonneg _)

/-- The sum of squared differences: `∑ (y - x)² = (∑ x² + ∑ y²) - 2 ∑ x·y`. -/
theorem sum_sq_diff (x y : ι → ℝ) :
    ∑ i, (y i - x i) * (y i - x i) = ((∑ i, x i * x i) + ∑ i, y i * y i) - 2 * ∑ i, x i * y i := by
  have h : ∀ i, (y i - x i) * (y i - x i) = (x i * x i + y i * y i) - 2 * (x i * y i) := fun i => by ring
  simp only [h, Finset.sum_sub_distrib, Finset.sum_add_distrib, ← Finset.mul_sum]

/-- Position `8192·j + l` of a row, from the tile `j` and the position `l` inside it. -/
def tilePos (j : Fin 8) (l : Fin 8192) : Fin 65536 := ⟨8192 * j.val + l.val, by have := j.isLt; have := l.isLt; omega⟩

/-- (tile, position in the tile) ↔ position in the row. -/
def tileEquiv : Fin 8 × Fin 8192 ≃ Fin 65536 where
  toFun p := tilePos p.1 p.2
  invFun k := (⟨k.val / 8192, by have := k.isLt; omega⟩, ⟨k.val % 8192, Nat.mod_lt _ (by norm_num)⟩)
  left_inv p := by
    have h1 := p.1.isLt
    have h2 := p.2.isLt
    refine Prod.ext (Fin.ext ?_) (Fin.ext ?_)
    · show (8192 * p.1.val + p.2.val) / 8192 = p.1.val
      omega
    · show (8192 * p.1.val + p.2.val) % 8192 = p.2.val
      omega
  right_inv k := by
    refine Fin.ext ?_
    show 8192 * (k.val / 8192) + k.val % 8192 = k.val
    omega

/-- A row summed tile by tile is the row's sum. -/
theorem sum_tiles {M : Type*} [AddCommMonoid M] (g : Fin 65536 → M) :
    ∑ j : Fin 8, ∑ l : Fin 8192, g (tilePos j l) = ∑ k : Fin 65536, g k := by
  rw [← Fintype.sum_prod_type']
  exact Fintype.sum_equiv tileEquiv _ _ (fun _ => rfl)

end Cert.SignalLoss.Algebra

end
-- ==== Proof.RowSums.lean ====
/-
  The kernel's result array: the table of row statistics.

  The grid has 2 row blocks of 128 rows, each visited in 8 consecutive points, one per tile of 8192 positions.
  Point `n` works on row block `n / 8` and tile `n % 8`. The accumulator after point `n` holds, for each row of the
  block and each of the five statistics, zero plus the sums over the tiles `0 … n % 8` visited so far in that block
  (by induction on the point: the first point of a block starts from zero, every other point adds its tile to what the
  point before left). The last point of a block copies the accumulator to the output block, which is then written
  back to rows `128·(n/8) …` of the result array; the two written blocks tile the array. Eight consecutive tiles of
  8192 positions are the row's 65536 positions, so each entry is the row's statistic.
-/
import proofs.«138629_j63720134803972_1_alg».proof.Proof.Gen.KernelIdeal.Frame
import proofs.«138629_j63720134803972_1_alg».proof.Proof.TileSums
import proofs.«138629_j63720134803972_1_alg».proof.Proof.Spec
import proofs.«138629_j63720134803972_1_alg».proof.Proof.Consts
import proofs.«138629_j63720134803972_1_alg».proof.Proof.Algebra
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RowSums

open Cert.KernelIdeal Cert.KernelIdeal.Gen Cert.KernelIdeal.TileSums Cert.SignalLoss Cert.SignalLoss.Algebra

variable (m : (ℓ : Loc nD τ sig) → Buf (Elt Ideal) ℓ)

/-- y_pred as the region finds it. -/
abbrev pArr (c : Dev nD) : Arr := V m c main_arg0
/-- y_true as the region finds it. -/
abbrev tArr (c : Dev nD) : Arr := V m c main_arg1
/-- The tile of y_pred point `t` reads. -/
abbrev pBlk (c : Dev nD) (t : Fin cfg0.N) : Vec Ideal S128x8192 .f32 := iblk m c 0 t
/-- The tile of y_true point `t` reads. -/
abbrev tBlk (c : Dev nD) (t : Fin cfg0.N) : Vec Ideal S128x8192 .f32 := iblk m c 1 t

/-- The summand of statistic `k` at one position, from the entries of y_pred and y_true there. -/
def feat : Fin 5 → EReal → EReal → EReal
  | ⟨0, _⟩, _, t => t
  | ⟨1, _⟩, p, _ => p
  | ⟨2, _⟩, p, t => t * p
  | ⟨3, _⟩, _, t => t * t
  | ⟨4, _⟩, p, _ => p * p
  | ⟨_ + 5, h⟩, _, _ => absurd h (Nat.not_lt.2 (Nat.le_add_left _ _))

theorem rowStat_feat (p t : Arr) (R : Fin 256) (k : Fin 5) :
    rowStat p t R k = ∑ l : Fin 65536, feat k (p (ix2 R l)) (t (ix2 R l)) := by
  match k with
  | ⟨0, _⟩ => rfl
  | ⟨1, _⟩ => rfl
  | ⟨2, _⟩ => rfl
  | ⟨3, _⟩ => rfl
  | ⟨4, _⟩ => rfl
  | ⟨n + 5, h⟩ => exact absurd h (by omega)

theorem tileStat_feat (x0 x1 : Vec Ideal S128x8192 .f32) (r : Fin 128) (k : Fin 5) :
    tileStat x0 x1 r k = ∑ l : Fin 8192, feat k (x0 (ix2 r l)) (x1 (ix2 r l)) := by
  match k with
  | ⟨0, _⟩ => rfl
  | ⟨1, _⟩ => rfl
  | ⟨2, _⟩ => rfl
  | ⟨3, _⟩ => rfl
  | ⟨4, _⟩ => rfl
  | ⟨n + 5, h⟩ => exact absurd h (by omega)

/-- The printed index maps over the grid: point `t` reads block `(t / 8, t % 8)` of each input and owns block
    `(t / 8, 0)` of the output. -/
theorem idx_in : ∀ t : Fin cfg0.N, win0_0.index t (0 : Fin 2) = t.val / 8 ∧ win0_0.index t (1 : Fin 2) = t.val % 8
    ∧ win0_1.index t (0 : Fin 2) = t.val / 8 ∧ win0_1.index t (1 : Fin 2) = t.val % 8
    ∧ win0_2.index t (0 : Fin 2) = t.val / 8 ∧ win0_2.index t (1 : Fin 2) = 0 :=
  (by decide +kernel : ∀ t : Fin grid0.N, _)

/-- Entry `(r, l)` of the y_pred tile at point `t` is entry `(128·(t/8) + r, 8192·(t%8) + l)` of y_pred. -/
theorem pBlk_apply (c : Dev nD) (t : Fin cfg0.N) (r : Fin 128) (l : Fin 8192) (R : Fin 256)
    (hR : R.val = 128 * (t.val / 8) + r.val) (j : Fin 8) (hj : j.val = t.val % 8) :
    pBlk m c t (ix2 r l) = pArr m c (ix2 R (tilePos j l)) := by
  obtain ⟨e0, e1, -, -, -, -⟩ := idx_in t
  unfold pBlk iblk
  rw [View.read_apply]
  show V m c main_arg0 _ = V m c main_arg0 _
  congr 1
  funext a
  apply Fin.ext
  match a with
  | ⟨0, _⟩ => show win0_0.index t (0 : Fin 2) * 128 + 1 * r.val = R.val; rw [e0, hR]; omega
  | ⟨1, _⟩ => show win0_0.index t (1 : Fin 2) * 8192 + 1 * l.val = 8192 * j.val + l.val; rw [e1, hj]; omega

/-- The same for the y_true tile. -/
theorem tBlk_apply (c : Dev nD) (t : Fin cfg0.N) (r : Fin 128) (l : Fin 8192) (R : Fin 256)
    (hR : R.val = 128 * (t.val / 8) + r.val) (j : Fin 8) (hj : j.val = t.val % 8) :
    tBlk m c t (ix2 r l) = tArr m c (ix2 R (tilePos j l)) := by
  obtain ⟨-, -, e0, e1, -, -⟩ := idx_in t
  unfold tBlk iblk
  rw [View.read_apply]
  show V m c main_arg1 _ = V m c main_arg1 _
  congr 1
  funext a
  apply Fin.ext
  match a with
  | ⟨0, _⟩ => show win0_1.index t (0 : Fin 2) * 128 + 1 * r.val = R.val; rw [e0, hR]; omega
  | ⟨1, _⟩ => show win0_1.index t (1 : Fin 2) * 8192 + 1 * l.val = 8192 * j.val + l.val; rw [e1, hj]; omega

/-- Statistic `k` of row `r` of row block `b`, over tile `i` only (zero for a block or tile that does not exist). -/
def tilePart (c : Dev nD) (b i : ℕ) (r : Fin 128) (k : Fin 5) : EReal :=
  if h : b < 2 ∧ i < 8 then
    ∑ l : Fin 8192,
      feat k (pArr m c (ix2 (⟨128 * b + r.val, by have := r.isLt; omega⟩ : Fin 256) (tilePos ⟨i, h.2⟩ l)))
        (tArr m c (ix2 (⟨128 * b + r.val, by have := r.isLt; omega⟩ : Fin 256) (tilePos ⟨i, h.2⟩ l)))
  else 0

/-- What point `t`'s tiles contribute is the part of its row block's statistics over its tile. -/
theorem tileStat_point (c : Dev nD) (t : Fin cfg0.N) (r : Fin 128) (k : Fin 5) :
    tileStat (pBlk m c t) (tBlk m c t) r k = tilePart m c (t.val / 8) (t.val % 8) r k := by
  have hN : t.val < 16 := lt_of_lt_of_eq t.isLt N_0
  have hb : t.val / 8 < 2 ∧ t.val % 8 < 8 := ⟨by omega, by omega⟩
  refine (tileStat_feat (pBlk m c t) (tBlk m c t) r k).trans ?_
  unfold tilePart
  rw [dif_pos hb]
  refine Finset.sum_congr rfl fun l _ => ?_
  rw [pBlk_apply m c t r l ⟨128 * (t.val / 8) + r.val, by have := r.isLt; omega⟩ rfl ⟨t.val % 8, hb.2⟩ rfl,
    tBlk_apply m c t r l ⟨128 * (t.val / 8) + r.val, by have := r.isLt; omega⟩ rfl ⟨t.val % 8, hb.2⟩ rfl]

/-! ## One point's step, case by case -/

/-- The first point of a row block leaves zero plus its tile's part. -/
theorem step_A (c : Dev nD) (t : Fin cfg0.N) (h0 : t.val % 8 = 0) (h1 : ¬t.val % 8 = 7) (r : Fin 128) (k : Fin 5) :
    (outsAt0 m c t.val t.isLt).2 (ix2 r k) = wZero + tilePart m c (t.val / 8) (t.val % 8) r k := by
  rw [outsAt0_A m c t h0 h1]
  dsimp only
  refine (scratch_A c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t) r k).trans ?_
  exact congrArg (wZero + ·) (tileStat_point m c t r k)

/-- A middle point adds its tile's part to what the point before left. -/
theorem step_B (c : Dev nD) (t : Fin cfg0.N) (h0 : ¬t.val % 8 = 0) (h1 : ¬t.val % 8 = 7) (r : Fin 128) (k : Fin 5) :
    (outsAt0 m c t.val t.isLt).2 (ix2 r k)
      = (outsAt0 m c (t.val - 1) (Nat.lt_of_le_of_lt (Nat.sub_le _ _) t.isLt)).2 (ix2 r k)
        + tilePart m c (t.val / 8) (t.val % 8) r k := by
  rw [outsAt0_B m c t h0 h1]
  dsimp only
  refine (scratch_B c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2 r k).trans ?_
  exact congrArg (_ + ·) (tileStat_point m c t r k)

/-- The last point of a row block does the same to the accumulator … -/
theorem step_C (c : Dev nD) (t : Fin cfg0.N) (h0 : ¬t.val % 8 = 0) (h1 : t.val % 8 = 7) (r : Fin 128) (k : Fin 5) :
    (outsAt0 m c t.val t.isLt).2 (ix2 r k)
      = (outsAt0 m c (t.val - 1) (Nat.lt_of_le_of_lt (Nat.sub_le _ _) t.isLt)).2 (ix2 r k)
        + tilePart m c (t.val / 8) (t.val % 8) r k := by
  rw [outsAt0_C m c t h0 h1]
  dsimp only
  refine (scratch_C c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2 r k).trans ?_
  exact congrArg (_ + ·) (tileStat_point m c t r k)

/-- … and leaves the same entries in the output block. -/
theorem step_C_out (c : Dev nD) (t : Fin cfg0.N) (h0 : ¬t.val % 8 = 0) (h1 : t.val % 8 = 7) (r : Fin 128) (k : Fin 5) :
    (outsAt0 m c t.val t.isLt).1 (ix2 r k)
      = (outsAt0 m c (t.val - 1) (Nat.lt_of_le_of_lt (Nat.sub_le _ _) t.isLt)).2 (ix2 r k)
        + tilePart m c (t.val / 8) (t.val % 8) r k := by
  rw [outsAt0_C m c t h0 h1]
  dsimp only
  refine (out_C c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2 r k).trans ?_
  exact congrArg (_ + ·) (tileStat_point m c t r k)

/-! ## The accumulator after every point -/

/-- Adding the next tile of the same row block to the running sum. -/
theorem acc_step (c : Dev nD) (n : ℕ) (h0 : ¬(n + 1) % 8 = 0) (r : Fin 128) (k : Fin 5) (prev : EReal)
    (hprev : prev = wZero + ∑ i ∈ Finset.range (n % 8 + 1), tilePart m c (n / 8) i r k) :
    prev + tilePart m c ((n + 1) / 8) ((n + 1) % 8) r k
      = wZero + ∑ i ∈ Finset.range ((n + 1) % 8 + 1), tilePart m c ((n + 1) / 8) i r k := by
  have e1 : (n + 1) / 8 = n / 8 := by omega
  have e2 : (n + 1) % 8 = n % 8 + 1 := by omega
  rw [hprev, e1, e2, Finset.sum_range_succ _ (n % 8 + 1), add_assoc]

/-- After point `n` the accumulator holds zero plus the parts of the tiles `0 … n % 8` of row block `n / 8`. -/
theorem scratch_eq (c : Dev nD) : ∀ (n : ℕ) (h : n < cfg0.N) (r : Fin 128) (k : Fin 5),
    (outsAt0 m c n h).2 (ix2 r k) = wZero + ∑ i ∈ Finset.range (n % 8 + 1), tilePart m c (n / 8) i r k
  | 0, h, r, k => by
    refine (step_A m c ⟨0, h⟩ (Nat.zero_mod 8) (by show ¬(0 % 8 = 7); decide) r k).trans ?_
    show wZero + tilePart m c (0 / 8) (0 % 8) r k = wZero + ∑ i ∈ Finset.range (0 % 8 + 1), tilePart m c (0 / 8) i r k
    rw [Nat.zero_mod, Nat.zero_div, Nat.zero_add, Finset.sum_range_one]
  | n + 1, h, r, k => by
    by_cases h0 : (n + 1) % 8 = 0
    · have h1 : ¬(n + 1) % 8 = 7 := by omega
      refine (step_A m c ⟨n + 1, h⟩ h0 h1 r k).trans ?_
      show wZero + tilePart m c ((n + 1) / 8) ((n + 1) % 8) r k
        = wZero + ∑ i ∈ Finset.range ((n + 1) % 8 + 1), tilePart m c ((n + 1) / 8) i r k
      rw [h0, Nat.zero_add, Finset.sum_range_one]
    · by_cases h1 : (n + 1) % 8 = 7
      · refine (step_C m c ⟨n + 1, h⟩ h0 h1 r k).trans ?_
        exact acc_step m c n h0 r k _ (scratch_eq c n (Nat.lt_of_succ_lt h) r k)
      · refine (step_B m c ⟨n + 1, h⟩ h0 h1 r k).trans ?_
        exact acc_step m c n h0 r k _ (scratch_eq c n (Nat.lt_of_succ_lt h) r k)

/-- All eight tiles of a row block's row make the row's statistic. -/
theorem eight_tiles (c : Dev nD) (b : ℕ) (hb : b < 2) (r : Fin 128) (k : Fin 5) :
    wZero + ∑ i ∈ Finset.range 8, tilePart m c b i r k
      = rowStat (pArr m c) (tArr m c) (⟨128 * b + r.val, by have := r.isLt; omega⟩ : Fin 256) k := by
  rw [show wZero = 0 from Consts.ofBits_zero, zero_add, Finset.sum_range, rowStat_feat,
    ← sum_tiles (fun l => feat k (pArr m c (ix2 _ l)) (tArr m c (ix2 _ l)))]
  refine Finset.sum_congr rfl fun j _ => ?_
  unfold tilePart
  rw [dif_pos ⟨hb, j.isLt⟩]

/-- The output block after the last point of a row block: the statistics of the block's rows. -/
theorem out_eq (c : Dev nD) (t : Fin cfg0.N) (h7 : t.val % 8 = 7) (r : Fin 128) (k : Fin 5) :
    (outsAt0 m c t.val t.isLt).1 (ix2 r k)
      = rowStat (pArr m c) (tArr m c) (⟨128 * (t.val / 8) + r.val, by
          have := r.isLt; have := lt_of_lt_of_eq t.isLt N_0; omega⟩ : Fin 256) k := by
  have hN : t.val < 16 := lt_of_lt_of_eq t.isLt N_0
  obtain ⟨n, hn⟩ : ∃ n, t.val = n + 1 := ⟨t.val - 1, by omega⟩
  have h0 : ¬t.val % 8 = 0 := by omega
  refine (step_C_out m c t h0 h7 r k).trans ?_
  have hprev := scratch_eq m c (t.val - 1) (Nat.lt_of_le_of_lt (Nat.sub_le _ _) t.isLt) r k
  rw [hprev, add_assoc]
  have e1 : (t.val - 1) / 8 = t.val / 8 := by omega
  have e2 : (t.val - 1) % 8 + 1 = 7 := by omega
  rw [e1, e2, h7, ← Finset.sum_range_succ (fun i => tilePart m c (t.val / 8) i r k) 7]
  exact eight_tiles m c (t.val / 8) (by omega) r k

/-! ## From the written blocks to the result array -/

/-- The table of row statistics, as contents of the result array. -/
abbrev table (c : Dev nD) : Buf (Elt Ideal) ((c : Thread nD τ).loc main_v0) := sums (pArr m c) (tArr m c)

/-- What the last point of a row block writes back is its block of the table. -/
theorem flushed_eq (c : Dev nD) (t : Fin cfg0.N) (hf : (cfg0.win 2).flush t = true) :
    (dats m 0 c).flushed 2 t = ((cfg0.win 2).blk t).view.read (Elt Ideal) (table m c) := by
  have h7 : t.val % 8 = 7 := (flush0_2 t).mp hf
  obtain ⟨-, -, -, -, e4, e5⟩ := idx_in t
  show (cfg0.win 2).cut (grid0.coords t) ((dats m 0 c).after 2 t) = _
  rw [after0_2]
  funext j
  have hj0 : (j 0).val < 128 := (j 0).isLt
  have hj1 : (j 1).val < 5 := (j 1).isLt
  have hN : t.val < 16 := lt_of_lt_of_eq t.isLt N_0
  show (outsAt0 m c t.val t.isLt).1 j = table m c (((cfg0.win 2).blk t).view.emb j)
  have hj : (j : S128x5.Idx) = ix2 (⟨(j 0).val, hj0⟩ : Fin 128) (⟨(j 1).val, hj1⟩ : Fin 5) :=
    funext fun a => Fin.ext (by match a with | ⟨0, _⟩ => rfl | ⟨1, _⟩ => rfl)
  have hemb : ((cfg0.win 2).blk t).view.emb j
      = ix2 (⟨128 * (t.val / 8) + (j 0).val, by omega⟩ : Fin 256) (⟨(j 1).val, hj1⟩ : Fin 5) := by
    funext a
    apply Fin.ext
    match a with
    | ⟨0, _⟩ => show win0_2.index t (0 : Fin 2) * 128 + 1 * (j 0).val = 128 * (t.val / 8) + (j 0).val; rw [e4]; omega
    | ⟨1, _⟩ => show win0_2.index t (1 : Fin 2) * 5 + 1 * (j 1).val = (j 1).val; rw [e5]; omega
  exact ((congrArg (outsAt0 m c t.val t.isLt).1 hj).trans
    (out_eq m c t h7 ⟨(j 0).val, hj0⟩ ⟨(j 1).val, hj1⟩)).trans (congrArg (table m c) hemb).symm

/-- An entry of the result array is in point `t`'s block iff each coordinate is in the block's range on its axis. -/
theorem mem_blk (t : Fin cfg0.N) (i : S256x5.Idx) :
    i ∈ ((cfg0.win 2).blk t).view.set ↔ ∀ a : Fin 2, win0_2.index t a * S128x5.size a ≤ (i a).val
      ∧ (i a).val < win0_2.index t a * S128x5.size a + S128x5.size a := by
  show i ∈ ((View.whole main_v0).slice (win0_2.rect t)).set ↔ _
  rw [View.set_slice_whole, Rect.mem_set_unit]
  exact Iff.rfl

/-- The two written blocks tile the result array: row `R` lies in the block written at the last point of row block
    `R / 128`. -/
theorem cover (c : Dev nD) (i : S256x5.Idx) :
    ∃ t : Fin cfg0.N, (cfg0.win 2).flush t = true ∧ i ∈ ((cfg0.win 2).blk t).view.set := by
  have hi0 : (i 0).val < 256 := (i 0).isLt
  have hi1 : (i 1).val < 5 := (i 1).isLt
  have hN : cfg0.N = 16 := N_0
  have ht : 8 * ((i 0).val / 128) + 7 < cfg0.N := by omega
  obtain ⟨-, -, -, -, e4, e5⟩ := idx_in ⟨8 * ((i 0).val / 128) + 7, ht⟩
  refine ⟨⟨8 * ((i 0).val / 128) + 7, ht⟩, (flush0_2 _).mpr (by show (8 * ((i 0).val / 128) + 7) % 8 = 7; omega), ?_⟩
  rw [mem_blk]
  intro a
  match a with
  | ⟨0, _⟩ =>
    show win0_2.index ⟨8 * ((i 0).val / 128) + 7, ht⟩ (0 : Fin 2) * 128 ≤ (i 0).val
      ∧ (i 0).val < win0_2.index ⟨8 * ((i 0).val / 128) + 7, ht⟩ (0 : Fin 2) * 128 + 128
    rw [e4]
    show (8 * ((i 0).val / 128) + 7) / 8 * 128 ≤ (i 0).val ∧ (i 0).val < (8 * ((i 0).val / 128) + 7) / 8 * 128 + 128
    omega
  | ⟨1, _⟩ =>
    show win0_2.index ⟨8 * ((i 0).val / 128) + 7, ht⟩ (1 : Fin 2) * 5 ≤ (i 1).val
      ∧ (i 1).val < win0_2.index ⟨8 * ((i 0).val / 128) + 7, ht⟩ (1 : Fin 2) * 5 + 5
    rw [e5]
    omega

/-- The result array after the region: the table of row statistics of the two arguments. -/
theorem final (c : Dev nD) : (dats m 0 c).arrAt 2 cfg0.N = table m c :=
  (dats m 0 c).arrAt_eq_of_cover 2 (table m c) (flushed_eq m c) (cover c)

end Cert.KernelIdeal.RowSums

end
-- ==== Proof.KernelLoss.lean ====
/-
  The kernel program's result.

  After the region the host takes the five columns of the 256-by-5 table (a one-column slice, then a reshape to a
  vector over the rows), forms per row Pearson's numerator `sxy − sx·sy/L`, the two variances, the floored
  denominator and `1 − r`, averages over the rows, forms the mean squared error from `sx2 + sy2 − 2·sxy`, and
  combines the two with the weights. Read at its one index that term is `tailLoss` of the table: a column at row
  `r` is the table's entry `(r, k)`, a broadcast scalar is its value, a sum over the rows is the initial value
  plus the sum, and the closing reshape keeps the one entry.
  The run of the whole program then ends with the result buffer at that term of the table of row statistics of the
  two arguments, and the arguments unchanged.
-/
import proofs.«138629_j63720134803972_1_alg».proof.Proof.Gen.KernelIdeal.Frame
import proofs.«138629_j63720134803972_1_alg».proof.Proof.RowSums
import proofs.«138629_j63720134803972_1_alg».proof.Proof.Spec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KernelLoss

open Cert.KernelIdeal Cert.KernelIdeal.Gen Cert.SignalLoss

/-! ## The host operations read at an index -/

/-- A sum over the indices of a one-axis shape is the sum over the axis. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := ix1, left_inv := fun i => (eq_ix1 i).symm, right_inv := fun _ => rfl }
  rw [← Equiv.sum_comp e.symm f]
  rfl

/-- A column [a, 1] cast to a vector [a] reads, at p, the column at (p, 0). -/
theorem cast_col_vec {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h (ix1 p) (ix2 p (0 : Fin 1)) (by
    rw [Shape.rowMajor_val_two, Shape.rowMajor_val_one]
    show p.val * 1 + 0 = p.val
    omega)

/-- The one-column slice of the table at column `k` reads, at row `r`, the table's entry `(r, k)`. -/
theorem slice_col {α : Type} (S : S256x5.Idx → α) (k : ℕ) (hk : k < 5) (h : S256x5.Slices ![0, k] S256x1) (r : Fin 256) :
    extractStridedSlice S256x1 ![0, k] S h (ix2 r (0 : Fin 1)) = S (ix2 r (⟨k, hk⟩ : Fin 5)) := by
  unfold extractStridedSlice
  congr 1
  funext a
  apply Fin.ext
  match a with
  | ⟨0, _⟩ => show 0 + r.val = r.val; omega
  | ⟨1, _⟩ => show k + 0 = k; omega

/-- Column `k` of the table as a vector over the rows. -/
def col (S : FVec Ideal S256x5 .f32) (k : ℕ) (h : S256x5.Slices ![0, k] S256x1) : FVec Ideal S256 .f32 :=
  shapeCast S256 (extractStridedSlice S256x1 ![0, k] S h) shapeCasts_S256x1_S256

theorem col_apply (S : FVec Ideal S256x5 .f32) (k : ℕ) (hk : k < 5) (h : S256x5.Slices ![0, k] S256x1) (r : Fin 256) :
    col S k h (ix1 r) = S (ix2 r (⟨k, hk⟩ : Fin 5)) :=
  (cast_col_vec _ shapeCasts_S256x1_S256 r).trans (slice_col S k hk h r)

/-- A scalar constant broadcast over the rows. -/
def bc (w : BitVec 32) : FVec Ideal S256 .f32 := broadcastInDim S256 ![] bcast_S_S256 (constant (F := Ideal) S_ .f32 w)

theorem bc_apply (w : BitVec 32) (r : Fin 256) : bc w (ix1 r) = Ideal.ofBits .f32 w :=
  (broadcastInDim_apply _ bcast_S_S256 _ (ix1 r) (fun a => a.elim0) (fun a => a.elim0)).trans rfl

/-- The host's sum of a vector over the rows, from a constant initial value. -/
theorem sum_rows (x : FVec Ideal S256 .f32) (w : BitVec 32) (j : S_.Idx) :
    Host.reduceAdd x (constant (F := Ideal) S_ .f32 w) reducesTo_S256_S_d0 h_S_ j
      = Ideal.ofBits .f32 w + ∑ r : Fin 256, x (ix1 r) := by
  simp only [Host.reduceAdd, Ideal.hostReduceAdd_def]
  rw [Ideal.hostReduceAdd_total reducesTo_S256_S_d0 (fun b => b.elim0) x _ j, sum_idx1]
  rfl

/-- The closing reshape of a scalar to one entry keeps the entry. -/
theorem reshape_one (y : FVec Ideal S_ .f32) (i : S1.Idx) : shapeCast S1 y shapeCasts_S_S1 i = y ix0 := by
  refine shapeCast_apply _ shapeCasts_S_S1 i ix0 ?_
  have h1 : (S1.rowMajor i).val = (i 0).val := Shape.rowMajor_val_one i
  have h2 : (i 0).val < 1 := (i 0).isLt
  have h3 : (S_.rowMajor ix0).val < S_.numel := (S_.rowMajor ix0).isLt
  have h4 : S_.numel = 1 := by decide
  omega

/-! ## The host tail as one term of the table -/

section Tail

variable (S : FVec Ideal S256x5 .f32)

/-- Pearson's numerator per row: `sxy − sx·sy / L`. -/
def numV : FVec Ideal S256 .f32 :=
  subf (col S 2 slices_S256x5_S256x1_0_2)
    (Host.divf (mulf (col S 0 slices_S256x5_S256x1_0_0) (col S 1 slices_S256x5_S256x1_0_1)) (bc 0x47800000#32))
/-- The first variance per row: `sx2 − sx·sx / L`. -/
def vxV : FVec Ideal S256 .f32 :=
  subf (col S 3 slices_S256x5_S256x1_0_3)
    (Host.divf (mulf (col S 0 slices_S256x5_S256x1_0_0) (col S 0 slices_S256x5_S256x1_0_0)) (bc 0x47800000#32))
/-- The second variance per row: `sy2 − sy·sy / L`. -/
def vyV : FVec Ideal S256 .f32 :=
  subf (col S 4 slices_S256x5_S256x1_0_4)
    (Host.divf (mulf (col S 1 slices_S256x5_S256x1_0_1) (col S 1 slices_S256x5_S256x1_0_1)) (bc 0x47800000#32))
/-- The floored denominator per row. -/
def denV : FVec Ideal S256 .f32 :=
  maximumf (Host.sqrt (maximumf (mulf (vxV S) (vyV S)) (bc 0x00000000#32))) (bc 0x322BCC77#32)
/-- The correlation term: the mean over the rows of `1 − r`. -/
def corrV : FVec Ideal S_ .f32 :=
  Host.divf (Host.reduceAdd (subf (bc 0x3F800000#32) (Host.divf (numV S) (denV S)))
      (constant (F := Ideal) S_ .f32 0x00000000#32) reducesTo_S256_S_d0 h_S_)
    (constant (F := Ideal) S_ .f32 0x43800000#32)
/-- The mean squared error from the row statistics. -/
def mseV : FVec Ideal S_ .f32 :=
  Host.divf (Host.reduceAdd
      (subf (addf (col S 3 slices_S256x5_S256x1_0_3) (col S 4 slices_S256x5_S256x1_0_4))
        (mulf (bc 0x40000000#32) (col S 2 slices_S256x5_S256x1_0_2)))
      (constant (F := Ideal) S_ .f32 0x00000000#32) reducesTo_S256_S_d0 h_S_)
    (mulf (constant (F := Ideal) S_ .f32 0x43800000#32) (constant (F := Ideal) S_ .f32 0x47800000#32))
/-- The result: the weighted sum, as one entry. -/
def tailTerm : FVec Ideal S1 .f32 :=
  shapeCast S1 (addf (mulf (constant (F := Ideal) S_ .f32 0x3F333333#32) (mseV S))
    (mulf (constant (F := Ideal) S_ .f32 0x3E99999A#32) (corrV S))) shapeCasts_S_S1

theorem hostDivf_apply {s : Shape} (a b : FVec Ideal s .f32) (i : s.Idx) : Host.divf a b i = Ideal.div (a i) (b i) := rfl
theorem hostSqrt_apply {s : Shape} (a : FVec Ideal s .f32) (i : s.Idx) : Host.sqrt a i = Ideal.sqrt (a i) := rfl

/-- The host tail's one entry is `tailLoss` of the table. -/
theorem tailTerm_apply (i : S1.Idx) : tailTerm S i = tailLoss S := by
  unfold tailTerm
  rw [reshape_one]
  unfold mseV corrV denV vxV vyV numV
  simp only [addf_apply, mulf_apply, subf_apply, maximumf_apply, hostDivf_apply, hostSqrt_apply, constant_apply,
    sum_rows, bc_apply, col_apply S 0 (by norm_num), col_apply S 1 (by norm_num), col_apply S 2 (by norm_num),
    col_apply S 3 (by norm_num), col_apply S 4 (by norm_num)]
  unfold tailLoss
  rfl

end Tail

/-! ## The run -/

variable (m : (ℓ : Loc nD τ sig) → Buf (Elt Ideal) ℓ) (ρ : Dev nD → PrngReg)

set_option maxRecDepth 8192 in
set_option maxHeartbeats 2000000 in
/-- After the host tail the result buffer holds the tail's term of the table of row statistics. -/
theorem tail_result (c : Dev nD) :
    Pipeline.afterTail₀ cfgs (dats m) 0 (V0 m) [hostOps1] c main_v44 = tailTerm (RowSums.table m c) := by
  unfold Pipeline.afterTail₀
  show StableHlo.after hostOps1 _ (Proc.devRef .tc main_v44) = _
  after_results_simp
  have e : Pipeline.withArrays (cfgs 0).spec c (V0 m c) (fun w => (dats m 0 c).arrAt w (cfgs 0).N)
      (Proc.devRef .tc main_v0) = RowSums.table m c :=
    (Pipeline.withArrays_arr spec0 launch0.win.arr_inj c _ _ 2).trans (RowSums.final m c)
  rw [e]
  rfl

/-- The run of the whole program: the result buffer ends at the tail's term of the table of row statistics of the two
    arguments, and the arguments end unchanged. -/
theorem run : θ_run defs (onTc (τ := τ) (main (F := Ideal))) ⟨m, fun _ => 0, ρ⟩ fun r => ∀ c : Dev nD,
      r.2.mem ((c : Thread nD τ).loc main_v44) = tailTerm (RowSums.table m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v44 (Pipeline.mem_restRefs_of main_v44 rfl (by decide))).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelLoss

end
-- ==== Proof.RefLoss.lean ====
/-
  The reference program read at an index: its one result entry is `refLoss` of its two argument arrays.
-/
import proofs.«138629_j63720134803972_1_alg».proof.Proof.Gen.ReferenceIdeal.Read
import proofs.«138629_j63720134803972_1_alg».proof.Proof.Spec
import Idealize.ShloMosaic.Lib.ValueIdx
import Idealize.ShloMosaic.Lib.Pipeline.Value
import Idealize.ShloMosaic.PureOps.Ideal.Laws

noncomputable section

namespace Cert.ReferenceIdeal.RefLoss

open Cert.ReferenceIdeal Cert.ReferenceIdeal.Gen Cert.ReferenceIdeal.Read
open Idealize.ShloMosaic Idealize.ShloMosaic.TcCoe Idealize.ShloMosaic.ValueIdx

/-- A sum over the indices of a one-axis shape is the sum over the axis. -/
private theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := ix1, left_inv := fun i => (eq_ix1 i).symm, right_inv := fun _ => rfl }
  rw [← Equiv.sum_comp e.symm f]
  rfl

/-- Row `r`, position `k`, as the reduced operand's index of a row sum. -/
private theorem e4 (r : Fin 256) (k : Fin 65536) : idx_main_v4 (ix1 r) k = ix2 r k :=
  funext fun a => Fin.ext (by match a with | ⟨0, _⟩ => rfl | ⟨1, _⟩ => rfl)
private theorem e10 (r : Fin 256) (k : Fin 65536) : idx_main_v10 (ix1 r) k = ix2 r k :=
  funext fun a => Fin.ext (by match a with | ⟨0, _⟩ => rfl | ⟨1, _⟩ => rfl)
private theorem e17 (r : Fin 256) (k : Fin 65536) : idx_main_v17 (ix1 r) k = ix2 r k :=
  funext fun a => Fin.ext (by match a with | ⟨0, _⟩ => rfl | ⟨1, _⟩ => rfl)
private theorem e19 (r : Fin 256) (k : Fin 65536) : idx_main_v19 (ix1 r) k = ix2 r k :=
  funext fun a => Fin.ext (by match a with | ⟨0, _⟩ => rfl | ⟨1, _⟩ => rfl)
private theorem e21 (r : Fin 256) (k : Fin 65536) : idx_main_v21 (ix1 r) k = ix2 r k :=
  funext fun a => Fin.ext (by match a with | ⟨0, _⟩ => rfl | ⟨1, _⟩ => rfl)
/-- The row mean broadcast back along the row is read at the row's index. -/
private theorem e5 (r : Fin 256) (k : Fin 65536) : idx_main_v5 (idx_main_v8 (ix2 r k)) = ix1 r :=
  funext fun a => Fin.ext (by match a with | ⟨0, _⟩ => rfl)
private theorem e11 (r : Fin 256) (k : Fin 65536) : idx_main_v11 (idx_main_v14 (ix2 r k)) = ix1 r :=
  funext fun a => Fin.ext (by match a with | ⟨0, _⟩ => rfl)

/-- The closing reshape keeps the one entry. -/
private theorem reshape_read (x0 x1 : (⟨S256x65536, .f32⟩ : BufTy).Contents (Elt Ideal)) (i : S1.Idx) :
    val_main_v34 (F := Ideal) x0 x1 i = val_main_v33 (F := Ideal) x0 x1 ix0 := by
  unfold val_main_v34
  refine shapeCast_apply _ shapeCasts_S_S1 i ix0 ?_
  have h1 : (S1.rowMajor i).val = (i 0).val := Shape.rowMajor_val_one i
  have h2 : (i 0).val < 1 := (i 0).isLt
  have h3 : (S_.rowMajor ix0).val < S_.numel := (S_.rowMajor ix0).isLt
  have h4 : S_.numel = 1 := by decide
  omega

/-- The reference's result, at its one index, is `refLoss` of its arguments (`x0` = y_pred, `x1` = y_true). -/
theorem ref_result (x0 x1 : (⟨S256x65536, .f32⟩ : BufTy).Contents (Elt Ideal)) (i : S1.Idx) :
    val_main_v34 (F := Ideal) x0 x1 i = Cert.SignalLoss.refLoss x0 x1 := by
  rw [reshape_read]
  simp only [val_main_v33_apply, val_main_v31_apply, val_main_v32_apply, val_main_v3_apply, val_main_v30_apply,
    val_main_v2_apply, val_main_v29_apply, sum_idx1, val_main_v28_apply, val_main_v27_apply, val_main_v26_apply,
    val_main_v17_apply, val_main_v25_apply, val_main_v23_apply, val_main_v24_apply, val_main_v22_apply,
    val_main_v19_apply, val_main_v21_apply, e17, e19, e21,
    val_main_v16_apply, val_main_v18_apply, val_main_v20_apply, val_main_v9_apply, val_main_v15_apply,
    val_main_v8_apply, val_main_v14_apply, val_main_v7_apply, val_main_v13_apply, val_main_v5_apply, val_main_v11_apply,
    val_main_v6_apply, val_main_v12_apply, e5, e11, val_main_v4_apply, val_main_v10_apply, e4, e10,
    val_main_v1_apply, val_main_v0_apply,
    val_main_cst_apply, val_main_cst_0_apply, val_main_cst_1_apply, val_main_cst_2_apply, val_main_cst_3_apply,
    val_main_cst_4_apply, val_main_cst_5_apply, val_main_cst_6_apply, val_main_cst_7_apply, val_main_cst_8_apply,
    val_main_cst_9_apply, val_main_cst_10_apply, val_main_cst_11_apply, val_main_cst_12_apply, val_main_cst_13_apply,
    Ideal.ofBits_def, Ideal.addf_def, Ideal.subf_def, Ideal.mulf_def, Ideal.hostDivf_def, Ideal.maximumf_def,
    Ideal.hostUnary_sqrt_def]
  unfold Cert.SignalLoss.refLoss
  rfl

end Cert.ReferenceIdeal.RefLoss

end
-- ==== Proof.Bridge.lean ====
/-
  The two forms of the loss agree on arrays of real numbers.

  For one row, write `x` for the row of y_true and `y` for the row of y_pred, both real. Every quantity under the
  square root and in the numerator of Pearson's r is then a real number read in the extended reals, so the real
  identities of `Algebra` apply under the coercion:
    * the kernel's `∑ x·y − (∑ x)(∑ y)/L` is the reference's `∑ (x − x̄)(y − ȳ)` (`raw_eq_centered`), which gives the
      numerator and, with `y = x`, each of the two variances;
    * the product of the two variances is a product of two sums of squares, so the kernel's clamp at zero does
      nothing (`clamp_centered`);
    * the kernel's `(∑ x² + ∑ y²) − 2 ∑ x·y` is the row's sum of squared differences (`sq_diff_row`), and
      `256 · 65536` is `2^24` (`wB_mul_wL`).
  The square root, the floor of the denominator, the division, `1 − r`, the sum over rows, the division by the
  number of rows and the two weights are the same on both sides and are carried along unevaluated.
-/
import proofs.«138629_j63720134803972_1_alg».proof.Proof.Spec
import proofs.«138629_j63720134803972_1_alg».proof.Proof.Consts
import proofs.«138629_j63720134803972_1_alg».proof.Proof.Algebra

noncomputable section

namespace Cert.SignalLoss

open Idealize.ShloMosaic Idealize.ShloMosaic.ValueIdx

private theorem card_row : (Fintype.card (Fin 65536) : ℝ) = 65536 := by
  simp

private theorem L_ne : (65536 : ℝ) ≠ 0 := by norm_num

/-- The reference's centred cross sum of a real row is the real centred cross sum. -/
private theorem centered_coe (x y : Fin 65536 → ℝ) :
    wZero + ∑ l : Fin 65536,
        ((x l : EReal) - Ideal.div (wZero + ∑ l' : Fin 65536, (x l' : EReal)) wL)
          * ((y l : EReal) - Ideal.div (wZero + ∑ l' : Fin 65536, (y l' : EReal)) wL)
      = ((∑ l : Fin 65536, (x l - (∑ j, x j) / 65536) * (y l - (∑ j, y j) / 65536) : ℝ) : EReal) := by
  simp only [wZero, wL, Consts.ofBits_zero, Consts.ofBits_65536, zero_add, Ideal.div_coe L_ne,
    ← Algebra.coe_sum, ← EReal.coe_mul, ← EReal.coe_sub, mul_one_div]

/-- The kernel's mean-corrected cross sum of a real row is the real one. -/
private theorem raw_coe (x y : Fin 65536 → ℝ) :
    (∑ l : Fin 65536, (x l : EReal) * (y l : EReal))
        - Ideal.div ((∑ l : Fin 65536, (x l : EReal)) * (∑ l : Fin 65536, (y l : EReal))) wL
      = (((∑ l : Fin 65536, x l * y l) - (∑ l, x l) * (∑ l, y l) / 65536 : ℝ) : EReal) := by
  simp only [wL, Consts.ofBits_65536, Ideal.div_coe L_ne,
    ← Algebra.coe_sum, ← EReal.coe_mul, ← EReal.coe_sub, mul_one_div]

/-- `∑ x·y − (∑ x)(∑ y)/L = ∑ (x − x̄)(y − ȳ)`, in the extended reals, for real rows. -/
private theorem raw_eq_centered (x y : Fin 65536 → ℝ) :
    (∑ l : Fin 65536, (x l : EReal) * (y l : EReal))
        - Ideal.div ((∑ l : Fin 65536, (x l : EReal)) * (∑ l : Fin 65536, (y l : EReal))) wL
      = wZero + ∑ l : Fin 65536,
        ((x l : EReal) - Ideal.div (wZero + ∑ l' : Fin 65536, (x l' : EReal)) wL)
          * ((y l : EReal) - Ideal.div (wZero + ∑ l' : Fin 65536, (y l' : EReal)) wL) := by
  rw [raw_coe, centered_coe, Algebra.sum_centered_mul 65536 card_row L_ne]

/-- The product of the two centred square sums of real rows is nonnegative: clamping it at zero does nothing. -/
private theorem clamp_centered (x y : Fin 65536 → ℝ) :
    max ((wZero + ∑ l : Fin 65536,
            ((x l : EReal) - Ideal.div (wZero + ∑ l' : Fin 65536, (x l' : EReal)) wL)
              * ((x l : EReal) - Ideal.div (wZero + ∑ l' : Fin 65536, (x l' : EReal)) wL))
          * (wZero + ∑ l : Fin 65536,
            ((y l : EReal) - Ideal.div (wZero + ∑ l' : Fin 65536, (y l' : EReal)) wL)
              * ((y l : EReal) - Ideal.div (wZero + ∑ l' : Fin 65536, (y l' : EReal)) wL))) wZero
      = (wZero + ∑ l : Fin 65536,
            ((x l : EReal) - Ideal.div (wZero + ∑ l' : Fin 65536, (x l' : EReal)) wL)
              * ((x l : EReal) - Ideal.div (wZero + ∑ l' : Fin 65536, (x l' : EReal)) wL))
          * (wZero + ∑ l : Fin 65536,
            ((y l : EReal) - Ideal.div (wZero + ∑ l' : Fin 65536, (y l' : EReal)) wL)
              * ((y l : EReal) - Ideal.div (wZero + ∑ l' : Fin 65536, (y l' : EReal)) wL)) := by
  rw [centered_coe, centered_coe, ← EReal.coe_mul]
  refine max_eq_left ?_
  rw [show wZero = 0 from Consts.ofBits_zero]
  exact EReal.coe_nonneg.mpr
    (mul_nonneg (Finset.sum_nonneg fun l _ => mul_self_nonneg _) (Finset.sum_nonneg fun l _ => mul_self_nonneg _))

/-- `(∑ x² + ∑ y²) − 2 ∑ x·y = ∑ (y − x)²`, in the extended reals, for real rows. -/
private theorem sq_diff_row (x y : Fin 65536 → ℝ) :
    ((∑ l : Fin 65536, (x l : EReal) * (x l : EReal)) + ∑ l : Fin 65536, (y l : EReal) * (y l : EReal))
        - wTwo * ∑ l : Fin 65536, (x l : EReal) * (y l : EReal)
      = ∑ l : Fin 65536, ((y l : EReal) - (x l : EReal)) * ((y l : EReal) - (x l : EReal)) := by
  simp only [wTwo, Consts.ofBits_two, ← Algebra.coe_sum, ← EReal.coe_mul, ← EReal.coe_sub, ← EReal.coe_add]
  rw [Algebra.sum_sq_diff]

/-- `256 · 65536 = 2^24`. -/
private theorem wB_mul_wL : wB * wL = wBL := by
  simp only [wB, wL, wBL, Consts.ofBits_256, Consts.ofBits_65536, Consts.ofBits_2p24, ← EReal.coe_mul]
  norm_num

private theorem sums_0 (p t : Arr) (r : Fin 256) :
    sums p t (ix2 r (0 : Fin 5)) = ∑ l : Fin 65536, t (ix2 r l) := rfl
private theorem sums_1 (p t : Arr) (r : Fin 256) :
    sums p t (ix2 r (1 : Fin 5)) = ∑ l : Fin 65536, p (ix2 r l) := rfl
private theorem sums_2 (p t : Arr) (r : Fin 256) :
    sums p t (ix2 r (2 : Fin 5)) = ∑ l : Fin 65536, t (ix2 r l) * p (ix2 r l) := rfl
private theorem sums_3 (p t : Arr) (r : Fin 256) :
    sums p t (ix2 r (3 : Fin 5)) = ∑ l : Fin 65536, t (ix2 r l) * t (ix2 r l) := rfl
private theorem sums_4 (p t : Arr) (r : Fin 256) :
    sums p t (ix2 r (4 : Fin 5)) = ∑ l : Fin 65536, p (ix2 r l) * p (ix2 r l) := rfl

/-- On arrays whose every entry is a real number, the kernel's closing arithmetic applied to the table of row
    statistics is the reference's loss. -/
theorem tail_eq_ref (p t : Arr) (hp : ∀ j, ∃ x : ℝ, p j = (x : EReal)) (ht : ∀ j, ∃ x : ℝ, t j = (x : EReal)) :
    tailLoss (sums p t) = refLoss p t := by
  choose P hP using hp
  choose T hT using ht
  obtain rfl : p = fun j => ((P j : ℝ) : EReal) := funext hP
  obtain rfl : t = fun j => ((T j : ℝ) : EReal) := funext hT
  have hnum := fun r : Fin 256 => raw_eq_centered (fun l => T (ix2 r l)) (fun l => P (ix2 r l))
  have hvt := fun r : Fin 256 => raw_eq_centered (fun l => T (ix2 r l)) (fun l => T (ix2 r l))
  have hvp := fun r : Fin 256 => raw_eq_centered (fun l => P (ix2 r l)) (fun l => P (ix2 r l))
  have hclamp := fun r : Fin 256 => clamp_centered (fun l => T (ix2 r l)) (fun l => P (ix2 r l))
  have hsq := fun r : Fin 256 => sq_diff_row (fun l => T (ix2 r l)) (fun l => P (ix2 r l))
  unfold tailLoss refLoss
  simp only [sums_0, sums_1, sums_2, sums_3, sums_4]
  simp only at hnum hvt hvp hclamp hsq
  simp only [hnum, hvt, hvp, hclamp, hsq, wB_mul_wL, sum_idx2]

end Cert.SignalLoss

end
-- ==== Proof.Finite.lean ====
/-
  The precondition read: where it holds, every entry of both argument arrays is a real number.
-/
import proofs.«138629_j63720134803972_1_alg».proof.Pre_finite_inputs
import proofs.«138629_j63720134803972_1_alg».proof.Proof.Gen.Pre_finite_inputs
import Idealize.ShloMosaic.PureOps.Ideal
import Idealize.ShloMosaic.Lib.ValueIdx
import Idealize.ShloMosaic.Lib.ReduceAll

noncomputable section

namespace Cert.SignalLoss

open Idealize.ShloMosaic Idealize.ShloMosaic.ValueIdx

/-- The result shape of a reduction over every axis has exactly one index. -/
private instance subsingleton_scalar_idx : Subsingleton Cert.Pre_finite_inputs.S_.Idx :=
  ⟨fun _ _ => funext fun d => d.elim0⟩

/-- The word `0x7F800000` is the f32 pattern of `+∞`. -/
private theorem ofBits_inf : Ideal.ofBits .f32 0x7F800000#32 = (⊤ : EReal) := by
  simp [Ideal.ofBits, Ideal.ieee]

/-- An extended real whose absolute value `max x (-x)` is strictly below `+∞` is a real number: at `⊥` the
    negation is `⊤`, at `⊤` the value itself is, and in both cases the maximum is `⊤`. -/
private theorem real_of_abs_lt_top (x : EReal) (h : max x (-x) < ⊤) : ∃ r : ℝ, x = (r : EReal) := by
  induction x using EReal.rec with
  | bot => simp at h
  | coe r => exact ⟨r, rfl⟩
  | top => simp at h

/-- One entry's comparison bit `|x| < +∞` being 1 says the entry is a real number. -/
private theorem real_of_cmp (x : Ideal .f32)
    (h : FloatOps.cmpf .olt (FloatOps.hostAbsf x) (Ideal.ofBits .f32 0x7F800000#32) = 1#1) :
    ∃ r : ℝ, x = (r : EReal) := by
  refine real_of_abs_lt_top x ?_
  have h' : Ideal.cmp .olt (max (x : EReal) (-(x : EReal))) ⊤ = 1#1 := by
    rw [← ofBits_inf]; exact h
  unfold Ideal.cmp at h'
  by_contra hn
  simp [hn] at h'

/-- Where the printed precondition is all ones, every entry of both arrays is a real number. -/
theorem real_of_pre [Cert.Pre_finite_inputs.Facts] (a0 a1 : FVec Ideal Cert.Pre_finite_inputs.S256x65536 .f32)
    (h : Cert.Pre_finite_inputs.fn (F := Ideal) a0 a1 = (fun _ => 1#1)) :
    (∀ j, ∃ x : ℝ, a0 j = (x : EReal)) ∧ (∀ j, ∃ x : ℝ, a1 j = (x : EReal)) := by
  -- the one entry of the predicate's result
  have h0 := congrFun h ValueIdx.ix0
  dsimp only [Cert.Pre_finite_inputs.fn] at h0
  -- the final conjunction of the two `all` bits
  obtain ⟨h1, h2⟩ := IntOp.andi_eq_one.1 h0
  refine ⟨fun j => ?_, fun j => ?_⟩
  · -- a reduction by `and` over every axis that came out 1 met a 1 at every entry
    have e := Host.reduce_andi_all _ _ _ _ _ h1 j
    exact real_of_cmp (a0 j) e
  · have e := Host.reduce_andi_all _ _ _ _ _ h2 j
    exact real_of_cmp (a1 j) e

end Cert.SignalLoss

end
-- ==== Proof.lean ====
/-
  The kernel computes a loss of two 256-by-65536 arrays, `p` = y_pred and `t` = y_true:

      0.7 · mean((p − t)²)  +  0.3 · mean over rows of (1 − r),
      r = ∑ (t − t̄)(p − p̄) / max(√(∑ (t − t̄)² · ∑ (p − p̄)²), ε)        (Pearson's r of a row, floored denominator).

  The reference computes it as written. The kernel streams each row once in 8 tiles of 8192 positions and keeps five
  running sums per row — ∑ t, ∑ p, ∑ t·p, ∑ t², ∑ p² — in a 256-by-5 table; plain arithmetic on that table then forms
  r from `sxy − sx·sy/L`, `sx2 − sx²/L`, `sy2 − sy²/L` (clamping the product of the two variances at zero before the
  square root) and the mean squared error from `sx2 + sy2 − 2·sxy`.

  Over the extended reals, for arrays of finite numbers (the precondition), the two agree:
    * the table holds the rows' statistics: by induction over the grid points the accumulator holds the sums over the
      tiles visited so far, and eight tiles of 8192 are the row (`RowSums`, over the per-point values of `TileSums`);
    * the closing arithmetic read at its one index is `tailLoss` of the table (`KernelLoss`), the reference's result
      `refLoss` of the two arrays (`RefLoss`);
    * on real entries `∑ (t − t̄)(p − p̄) = ∑ t·p − (∑ t)(∑ p)/L`, likewise each variance, so the product of the
      variances is a product of sums of squares and the clamp does nothing, and `∑ (p − t)² = ∑ t² + ∑ p² − 2 ∑ t·p`,
      `256 · 65536 = 2^24` (`Bridge`, over the real identities of `Algebra`); finiteness is what lets these
      distributive laws be used (`Finite` reads it off the precondition).
  The square root, the floor ε, the divisions by the denominator and by the number of rows and the two weights are the
  same expressions on both sides and are never evaluated. The ideal pass rewrote nothing, so `preserves` is trivial;
  the two kernel frames are the generated ones, and the reference's frame is its generated run with the result dropped.
-/
import proofs.«138629_j63720134803972_1_alg».proof.Defs
import proofs.«138629_j63720134803972_1_alg».proof.Proof.Gen.Kernel
import proofs.«138629_j63720134803972_1_alg».proof.Proof.Gen.Kernel.Skeleton
import proofs.«138629_j63720134803972_1_alg».proof.Proof.Gen.Kernel.Launch
import proofs.«138629_j63720134803972_1_alg».proof.Proof.Gen.Kernel.Points
import proofs.«138629_j63720134803972_1_alg».proof.Proof.Gen.Kernel.Frame
import proofs.«138629_j63720134803972_1_alg».proof.Proof.Gen.KernelIdeal
import proofs.«138629_j63720134803972_1_alg».proof.Proof.Gen.KernelIdeal.Skeleton
import proofs.«138629_j63720134803972_1_alg».proof.Proof.Gen.KernelIdeal.Launch
import proofs.«138629_j63720134803972_1_alg».proof.Proof.Gen.KernelIdeal.Points
import proofs.«138629_j63720134803972_1_alg».proof.Proof.Gen.KernelIdeal.Frame
import proofs.«138629_j63720134803972_1_alg».proof.Proof.Gen.ReferenceIdeal
import proofs.«138629_j63720134803972_1_alg».proof.Proof.Gen.ReferenceIdeal.Run
import proofs.«138629_j63720134803972_1_alg».proof.Proof.Gen.ReferenceIdeal.Read
import proofs.«138629_j63720134803972_1_alg».proof.Proof.Gen.Pre_finite_inputs
import proofs.«138629_j63720134803972_1_alg».proof.Proof.KernelLoss
import proofs.«138629_j63720134803972_1_alg».proof.Proof.RefLoss
import proofs.«138629_j63720134803972_1_alg».proof.Proof.Bridge
import proofs.«138629_j63720134803972_1_alg».proof.Proof.Finite
import Idealize.ShloMosaic.Adequacy
import Idealize.ShloMosaic.Init

noncomputable section

namespace Cert.Proof

open Idealize.ShloMosaic Idealize.SL.Sem

/-- The word-level kernel runs and leaves its arguments unchanged: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- On finite inputs the kernel's result entry, `tailLoss` of the table of row statistics, is the reference's,
    `refLoss` of the two arrays. -/
theorem algebraic : Cert.algebraic_KernelIdeal_ReferenceIdeal := by
  intro m ρ m' ρ' hpre hagree
  refine ⟨fun c => Cert.KernelIdeal.KernelLoss.tailTerm (Cert.KernelIdeal.RowSums.table m c),
    Cert.KernelIdeal.KernelLoss.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v34_eq (F := Ideal) _ _).trans ?_
  funext i
  obtain ⟨hp, ht⟩ := Cert.SignalLoss.real_of_pre _ _ (hpre c)
  show Cert.ReferenceIdeal.Read.val_main_v34 (F := Ideal) _ _ i
    = Cert.KernelIdeal.KernelLoss.tailTerm (Cert.KernelIdeal.RowSums.table m c) i
  rw [Cert.ReferenceIdeal.RefLoss.ref_result, Cert.KernelIdeal.KernelLoss.tailTerm_apply, (hagree c).1, (hagree c).2]
  exact (Cert.SignalLoss.tail_eq_ref _ _ hp ht).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
